-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256x256 : Shape := ⟨3, ![512, 256, 256]⟩
abbrev S512x256 : Shape := ⟨2, ![512, 256]⟩
abbrev S4x512x256 : Shape := ⟨3, ![4, 512, 256]⟩
abbrev S_ : Shape := ⟨0, ![]⟩
abbrev S512x255 : Shape := ⟨2, ![512, 255]⟩
abbrev S4x512x255 : Shape := ⟨3, ![4, 512, 255]⟩

class Facts : Prop where
  bcast_S_S512x256x256 : S_.BroadcastsInDim S512x256x256 (![] : Fin 0 → Fin S512x256x256.rank)
  reducesTo_S512x256x256_S_d0_1_2 : S512x256x256.ReducesTo [0, 1, 2] S_
  h_S_ : 0 < S_.numel
  slices_S512x256_S512x255_0_1 : S512x256.Slices ![0, 1] S512x255
  bcast_S_S512x255 : S_.BroadcastsInDim S512x255 (![] : Fin 0 → Fin S512x255.rank)
  reducesTo_S512x255_S_d0_1 : S512x255.ReducesTo [0, 1] S_
  slices_S4x512x256_S4x512x255_0_0_1 : S4x512x256.Slices ![0, 0, 1] S4x512x255
  bcast_S_S4x512x255 : S_.BroadcastsInDim S4x512x255 (![] : Fin 0 → Fin S4x512x255.rank)
  reducesTo_S4x512x255_S_d0_1_2 : S4x512x255.ReducesTo [0, 1, 2] S_

variable [Facts]

def fn_part1 {F : FTy → Type} [FloatOps F] (main_v12 : IVec S_ 1) (main_v15 : IVec S4x512x255 1) (main_v16 : IVec S4x512x255 32) (main_c_4 : IVec S_ 32) : IVec S_ 1 :=
  let main_v17 : IVec S4x512x255 32 := broadcastInDim S4x512x255 ![] bcast_S_S4x512x255 main_c_4
  let main_v18 : IVec S4x512x255 1 := cmpi .sle main_v16 main_v17
  let main_v19 : IVec S4x512x255 1 := andi main_v15 main_v18
  let main_c_5 : IVec S_ 1 := constantI S_ 1 1#1
  let main_v20 : IVec S_ 1 := (fun x v => Host.reduce IntOp.andi x v reducesTo_S4x512x255_S_d0_1_2 h_S_) main_v19 main_c_5
  let main_v21 : IVec S_ 1 := andi main_v12 main_v20
  main_v21

def fn {F : FTy → Type} [FloatOps F] (main_arg0 : FVec F S512x256x256 .f32) (main_arg1 : IVec S512x256 32) (main_arg2 : IVec S512x256 32) (main_arg3 : IVec S4x512x256 32) : IVec S_ 1 :=
  let main_v0 : FVec F S512x256x256 .f32 := Host.absf main_arg0
  let main_cst : FVec F S_ .f32 := constant S_ .f32 0x7F800000#32
  let main_v1 : FVec F S512x256x256 .f32 := broadcastInDim S512x256x256 ![] bcast_S_S512x256x256 main_cst
  let main_v2 : IVec S512x256x256 1 := cmpf .olt main_v0 main_v1
  let main_c : IVec S_ 1 := constantI S_ 1 1#1
  let main_v3 : IVec S_ 1 := (fun x v => Host.reduce IntOp.andi x v reducesTo_S512x256x256_S_d0_1_2 h_S_) main_v2 main_c
  let main_v4 : IVec S512x255 32 := (extractStridedSlice S512x255 ![0, 1] · slices_S512x256_S512x255_0_1) main_arg1
  let main_c_0 : IVec S_ 32 := constantI S_ 32 0#32
  let main_v5 : IVec S512x255 32 := broadcastInDim S512x255 ![] bcast_S_S512x255 main_c_0
  let main_v6 : IVec S512x255 1 := cmpi .sge main_v4 main_v5
  let main_v7 : IVec S512x255 32 := (extractStridedSlice S512x255 ![0, 1] · slices_S512x256_S512x255_0_1) main_arg1
  let main_c_1 : IVec S_ 32 := constantI S_ 32 255#32
  let main_v8 : IVec S512x255 32 := broadcastInDim S512x255 ![] bcast_S_S512x255 main_c_1
  let main_v9 : IVec S512x255 1 := cmpi .sle main_v7 main_v8
  let main_v10 : IVec S512x255 1 := andi main_v6 main_v9
  let main_c_2 : IVec S_ 1 := constantI S_ 1 1#1
  let main_v11 : IVec S_ 1 := (fun x v => Host.reduce IntOp.andi x v reducesTo_S512x255_S_d0_1 h_S_) main_v10 main_c_2
  let main_v12 : IVec S_ 1 := andi main_v3 main_v11
  let main_v13 : IVec S4x512x255 32 := (extractStridedSlice S4x512x255 ![0, 0, 1] · slices_S4x512x256_S4x512x255_0_0_1) main_arg3
  let main_c_3 : IVec S_ 32 := constantI S_ 32 0#32
  let main_v14 : IVec S4x512x255 32 := broadcastInDim S4x512x255 ![] bcast_S_S4x512x255 main_c_3
  let main_v15 : IVec S4x512x255 1 := cmpi .sge main_v13 main_v14
  let main_v16 : IVec S4x512x255 32 := (extractStridedSlice S4x512x255 ![0, 0, 1] · slices_S4x512x256_S4x512x255_0_0_1) main_arg3
  let main_c_4 : IVec S_ 32 := constantI S_ 32 255#32
  fn_part1 (F := F) main_v12 main_v15 main_v16 main_c_4
-- ==== Kernel.lean ====
abbrev S512x256x256 : Shape := ⟨3, ![512, 256, 256]⟩
abbrev S512x256 : Shape := ⟨2, ![512, 256]⟩
abbrev S4x512x256 : Shape := ⟨3, ![4, 512, 256]⟩
abbrev S256 : Shape := ⟨1, ![256]⟩
abbrev S1x256 : Shape := ⟨2, ![1, 256]⟩
abbrev S_ : Shape := ⟨0, ![]⟩
abbrev S1x512x256 : Shape := ⟨3, ![1, 512, 256]⟩
abbrev S5x512x256 : Shape := ⟨3, ![5, 512, 256]⟩
abbrev S512x5 : Shape := ⟨2, ![512, 5]⟩
abbrev S16x256x256 : Shape := ⟨3, ![16, 256, 256]⟩
abbrev S5x16x256 : Shape := ⟨3, ![5, 16, 256]⟩
abbrev S16x256 : Shape := ⟨2, ![16, 256]⟩
abbrev S16x5 : Shape := ⟨2, ![16, 5]⟩
abbrev S1x16x256 : Shape := ⟨3, ![1, 16, 256]⟩
abbrev S16x1x256 : Shape := ⟨3, ![16, 1, 256]⟩
abbrev S16 : Shape := ⟨1, ![16]⟩
abbrev S16x1 : Shape := ⟨2, ![16, 1]⟩
abbrev S512x1 : Shape := ⟨2, ![512, 1]⟩
abbrev S512 : Shape := ⟨1, ![512]⟩
abbrev S512x4 : Shape := ⟨2, ![512, 4]⟩
abbrev S4x512 : Shape := ⟨2, ![4, 512]⟩
abbrev S1x512 : Shape := ⟨2, ![1, 512]⟩

abbrev nBuf : Space → Nat
  | .hbm => 35
  | .vmem => 8
  | .smem => 0
  | _ => 0

abbrev bufTy : (tb : Table) → Fin (tcTables nBuf tb) → BufTy
  | .hbm, ⟨0, _⟩ => ⟨S512x256x256, .f32⟩
  | .hbm, ⟨1, _⟩ => ⟨S512x256, .i32⟩
  | .hbm, ⟨2, _⟩ => ⟨S512x256, .i32⟩
  | .hbm, ⟨3, _⟩ => ⟨S4x512x256, .i32⟩
  | .hbm, ⟨4, _⟩ => ⟨S256, .i32⟩
  | .hbm, ⟨5, _⟩ => ⟨S1x256, .i32⟩
  | .hbm, ⟨6, _⟩ => ⟨S_, .i32⟩
  | .hbm, ⟨7, _⟩ => ⟨S1x256, .i32⟩
  | .hbm, ⟨8, _⟩ => ⟨S1x256, .i1⟩
  | .hbm, ⟨9, _⟩ => ⟨S512x256, .f32⟩
  | .hbm, ⟨10, _⟩ => ⟨S_, .f32⟩
  | .hbm, ⟨11, _⟩ => ⟨S_, .f32⟩
  | .hbm, ⟨12, _⟩ => ⟨S512x256, .i1⟩
  | .hbm, ⟨13, _⟩ => ⟨S512x256, .f32⟩
  | .hbm, ⟨14, _⟩ => ⟨S512x256, .f32⟩
  | .hbm, ⟨15, _⟩ => ⟨S1x512x256, .i32⟩
  | .hbm, ⟨16, _⟩ => ⟨S5x512x256, .i32⟩
  | .hbm, ⟨17, _⟩ => ⟨S512x5, .f32⟩
  | .hbm, ⟨18, _⟩ => ⟨S512x1, .f32⟩
  | .hbm, ⟨19, _⟩ => ⟨S512, .f32⟩
  | .hbm, ⟨20, _⟩ => ⟨S512x4, .f32⟩
  | .hbm, ⟨21, _⟩ => ⟨S4x512, .f32⟩
  | .hbm, ⟨22, _⟩ => ⟨S1x512, .f32⟩
  | .hbm, ⟨23, _⟩ => ⟨S_, .f32⟩
  | .hbm, ⟨24, _⟩ => ⟨S1x512, .f32⟩
  | .hbm, ⟨25, _⟩ => ⟨S1x512, .f32⟩
  | .hbm, ⟨26, _⟩ => ⟨S4x512, .f32⟩
  | .hbm, ⟨27, _⟩ => ⟨S4x512, .f32⟩
  | .hbm, ⟨28, _⟩ => ⟨S_, .f32⟩
  | .hbm, ⟨29, _⟩ => ⟨S4x512, .f32⟩
  | .hbm, ⟨30, _⟩ => ⟨S4x512, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S16x256x256, .f32⟩
  | .local _ .vmem, ⟨1, _⟩ => ⟨S16x256x256, .f32⟩
  | .local _ .vmem, ⟨2, _⟩ => ⟨S5x16x256, .i32⟩
  | .local _ .vmem, ⟨3, _⟩ => ⟨S5x16x256, .i32⟩
  | .local _ .vmem, ⟨4, _⟩ => ⟨S16x256, .f32⟩
  | .local _ .vmem, ⟨5, _⟩ => ⟨S16x256, .f32⟩
  | .local _ .vmem, ⟨6, _⟩ => ⟨S16x5, .f32⟩
  | .local _ .vmem, ⟨7, _⟩ => ⟨S16x5, .f32⟩
  | _, _ => ⟨S512x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x16x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S256_S1x256_1 : S256.BroadcastsInDim S1x256 (![1] : Fin 1 → Fin S1x256.rank)
  bcast_S_S1x256 : S_.BroadcastsInDim S1x256 (![] : Fin 0 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S512x256_S1x512x256_1_2 : S512x256.BroadcastsInDim S1x512x256 (![1, 2] : Fin 2 → Fin S1x512x256.rank)
  concatenates_S1x512x256_S4x512x256_S5x512x256_d0 : Shape.Concatenates [S1x512x256, S4x512x256] S5x512x256 0
  inb_S16x256x256_S16x256x256_0_0_0 : ∀ a, (![0, 0, 0] : Fin 3 → Nat) a + S16x256x256.size a ≤ S16x256x256.size a
  h_S16x256x256 : 0 < S16x256x256.numel
  inb_S16x256_S16x256_0_0 : ∀ a, (![0, 0] : Fin 2 → Nat) a + S16x256.size a ≤ S16x256.size a
  h_S16x256 : 0 < S16x256.numel
  shapeCasts_S16x256_S16x256 : S16x256.ShapeCasts S16x256
  iota_S16x256x256_d1_w32 : S16x256x256.Iotas .tc 32 [1]
  inb_S5x16x256_S1x16x256_0_0_0 : ∀ a, (![0, 0, 0] : Fin 3 → Nat) a + S1x16x256.size a ≤ S5x16x256.size a
  h_S1x16x256 : 0 < S1x16x256.numel
  shapeCasts_S1x16x256_S16x256 : S1x16x256.ShapeCasts S16x256
  shapeCasts_S16x256_S16x1x256 : S16x256.ShapeCasts S16x1x256
  broadcasts_S16x1x256_S16x256x256 : S16x1x256.Broadcasts S16x256x256
  reduces_S16x256x256_S16x256 : S16x256x256.Reduces [1] S16x256
  reduces_S16x256_S16 : S16x256.Reduces [1] S16
  inb_S5x16x256_S1x16x256_1_0_0 : ∀ a, (![1, 0, 0] : Fin 3 → Nat) a + S1x16x256.size a ≤ S5x16x256.size a
  inb_S5x16x256_S1x16x256_2_0_0 : ∀ a, (![2, 0, 0] : Fin 3 → Nat) a + S1x16x256.size a ≤ S5x16x256.size a
  inb_S5x16x256_S1x16x256_3_0_0 : ∀ a, (![3, 0, 0] : Fin 3 → Nat) a + S1x16x256.size a ≤ S5x16x256.size a
  inb_S5x16x256_S1x16x256_4_0_0 : ∀ a, (![4, 0, 0] : Fin 3 → Nat) a + S1x16x256.size a ≤ S5x16x256.size a
  shapeCasts_S16_S16x1 : S16.ShapeCasts S16x1
  concatenates_S16x1_S16x1_S16x1_S16x1_S16x1_S16x5_d1 : Shape.Concatenates [S16x1, S16x1, S16x1, S16x1, S16x1] S16x5 1
  inb_S16x5_S16x5_0_0 : ∀ a, (![0, 0] : Fin 2 → Nat) a + S16x5.size a ≤ S16x5.size a
  h_S16x5 : 0 < S16x5.numel
  slices_S512x5_S512x1_0_0 : S512x5.Slices ![0, 0] S512x1
  shapeCasts_S512x1_S512 : S512x1.ShapeCasts S512
  slices_S512x5_S512x4_0_1 : S512x5.Slices ![0, 1] S512x4
  transposes_S512x4_S4x512_1_0 : S512x4.Transposes [1, 0] S4x512
  bcast_S512_S1x512_1 : S512.BroadcastsInDim S1x512 (![1] : Fin 1 → Fin S1x512.rank)
  bcast_S_S1x512 : S_.BroadcastsInDim S1x512 (![] : Fin 0 → Fin S1x512.rank)
  bcast_S1x512_S4x512_0_1 : S1x512.BroadcastsInDim S4x512 (![0, 1] : Fin 2 → Fin S4x512.rank)
  bcast_S_S4x512 : S_.BroadcastsInDim S4x512 (![] : Fin 0 → Fin S4x512.rank)
  reducesTo_S4x512_S_d0_1 : S4x512.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S512x256x256.size a
  hwx0_0 : ∀ i : grid0.Coords, EltTy.bits .f32 = 32 ∨ (Rect.block (s := S512x256x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x16x256.size a ≤ S5x512x256.size a
  hwx0_1 : ∀ i : grid0.Coords, EltTy.bits .i32 = 32 ∨ (Rect.block (s := S5x512x256) S5x16x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S512x256.size a
  hwx0_2 : ∀ i : grid0.Coords, EltTy.bits .f32 = 32 ∨ (Rect.block (s := S512x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x5.size a ≤ S512x5.size a
  hwx0_3 : ∀ i : grid0.Coords, EltTy.bits .f32 = 32 ∨ (Rect.block (s := S512x5) S16x5.size (cc0_transform_3 i) (hinb0_3 i)).WholeWords (EltTy.packing .f32)

variable [Facts₀]

abbrev win0_0 : Pipeline.Window sig grid0 :=
  Pipeline.Window.ofSpec (Memref.whole main_arg0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S16x5.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x256x256 : Shape := ⟨3, ![512, 256, 256]⟩
abbrev S512x256 : Shape := ⟨2, ![512, 256]⟩
abbrev S4x512x256 : Shape := ⟨3, ![4, 512, 256]⟩
abbrev S512x255 : Shape := ⟨2, ![512, 255]⟩
abbrev S_ : Shape := ⟨0, ![]⟩
abbrev S512x256x255 : Shape := ⟨3, ![512, 256, 255]⟩
abbrev S512x1x255 : Shape := ⟨3, ![512, 1, 255]⟩
abbrev S512x1x255x1 : Shape := ⟨4, ![512, 1, 255, 1]⟩
abbrev S1 : Shape := ⟨1, ![1]⟩
abbrev S1x1x1x1 : Shape := ⟨4, ![1, 1, 1, 1]⟩
abbrev S512 : Shape := ⟨1, ![512]⟩
abbrev S4x512x255 : Shape := ⟨3, ![4, 512, 255]⟩
abbrev S4x512x1x255 : Shape := ⟨4, ![4, 512, 1, 255]⟩
abbrev S4x512x1x255x1 : Shape := ⟨5, ![4, 512, 1, 255, 1]⟩
abbrev S1x1x1x1x1 : Shape := ⟨5, ![1, 1, 1, 1, 1]⟩
abbrev S1x512x255 : Shape := ⟨3, ![1, 512, 255]⟩
abbrev S4x512 : Shape := ⟨2, ![4, 512]⟩
abbrev S1x512 : Shape := ⟨2, ![1, 512]⟩

abbrev nBuf : Space → Nat
  | .hbm => 95
  | .vmem => 0
  | .smem => 0
  | _ => 0

abbrev bufTy : (tb : Table) → Fin (tcTables nBuf tb) → BufTy
  | .hbm, ⟨0, _⟩ => ⟨S512x256x256, .f32⟩
  | .hbm, ⟨1, _⟩ => ⟨S512x256, .i32⟩
  | .hbm, ⟨2, _⟩ => ⟨S512x256, .i32⟩
  | .hbm, ⟨3, _⟩ => ⟨S4x512x256, .i32⟩
  | .hbm, ⟨4, _⟩ => ⟨S512x255, .i32⟩
  | .hbm, ⟨5, _⟩ => ⟨S512x255, .f32⟩
  | .hbm, ⟨6, _⟩ => ⟨S512x255, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S512x255, .i32⟩
  | .hbm, ⟨11, _⟩ => ⟨S512x255, .i32⟩
  | .hbm, ⟨12, _⟩ => ⟨S_, .i32⟩
  | .hbm, ⟨13, _⟩ => ⟨S512x255, .i32⟩
  | .hbm, ⟨14, _⟩ => ⟨S512x255, .i32⟩
  | .hbm, ⟨15, _⟩ => ⟨S512x256x255, .f32⟩
  | .hbm, ⟨16, _⟩ => ⟨S512x1x255, .i32⟩
  | .hbm, ⟨17, _⟩ => ⟨S_, .i32⟩
  | .hbm, ⟨18, _⟩ => ⟨S512x1x255, .i32⟩
  | .hbm, ⟨19, _⟩ => ⟨S512x1x255, .i1⟩
  | .hbm, ⟨20, _⟩ => ⟨S_, .i32⟩
  | .hbm, ⟨21, _⟩ => ⟨S512x1x255, .i32⟩
  | .hbm, ⟨22, _⟩ => ⟨S512x1x255, .i32⟩
  | .hbm, ⟨23, _⟩ => ⟨S512x1x255, .i32⟩
  | .hbm, ⟨24, _⟩ => ⟨S512x1x255x1, .i32⟩
  | .hbm, ⟨25, _⟩ => ⟨S1, .i32⟩
  | .hbm, ⟨26, _⟩ => ⟨S_, .i32⟩
  | .hbm, ⟨27, _⟩ => ⟨S512x1x255x1, .i32⟩
  | .hbm, ⟨28, _⟩ => ⟨S512x1x255x1, .i1⟩
  | .hbm, ⟨29, _⟩ => ⟨S1x1x1x1, .i32⟩
  | .hbm, ⟨30, _⟩ => ⟨S512x1x255x1, .i32⟩
  | .hbm, ⟨31, _⟩ => ⟨S512x1x255x1, .i1⟩
  | .hbm, ⟨32, _⟩ => ⟨S512x1x255x1, .i1⟩
  | .hbm, ⟨33, _⟩ => ⟨S_, .i1⟩
  | .hbm, ⟨34, _⟩ => ⟨S512x1x255, .i1⟩
  | .hbm, ⟨35, _⟩ => ⟨S512x1x255, .f32⟩
  | .hbm, ⟨36, _⟩ => ⟨S_, .f32⟩
  | .hbm, ⟨37, _⟩ => ⟨S512x1x255, .f32⟩
  | .hbm, ⟨38, _⟩ => ⟨S512x1x255, .f32⟩
  | .hbm, ⟨39, _⟩ => ⟨S512x255, .f32⟩
  | .hbm, ⟨40, _⟩ => ⟨S512x255, .f32⟩
  | .hbm, ⟨41, _⟩ => ⟨S_, .f32⟩
  | .hbm, ⟨42, _⟩ => ⟨S512, .f32⟩
  | .hbm, ⟨43, _⟩ => ⟨S4x512x255, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S4x512x255, .i32⟩
  | .hbm, ⟨48, _⟩ => ⟨S4x512x255, .i32⟩
  | .hbm, ⟨49, _⟩ => ⟨S_, .i32⟩
  | .hbm, ⟨50, _⟩ => ⟨S4x512x255, .i32⟩
  | .hbm, ⟨51, _⟩ => ⟨S4x512x255, .i32⟩
  | .hbm, ⟨52, _⟩ => ⟨S512x256x255, .f32⟩
  | .hbm, ⟨53, _⟩ => ⟨S4x512x1x255, .i32⟩
  | .hbm, ⟨54, _⟩ => ⟨S_, .i32⟩
  | .hbm, ⟨55, _⟩ => ⟨S4x512x1x255, .i32⟩
  | .hbm, ⟨56, _⟩ => ⟨S4x512x1x255, .i1⟩
  | .hbm, ⟨57, _⟩ => ⟨S_, .i32⟩
  | .hbm, ⟨58, _⟩ => ⟨S4x512x1x255, .i32⟩
  | .hbm, ⟨59, _⟩ => ⟨S4x512x1x255, .i32⟩
  | .hbm, ⟨60, _⟩ => ⟨S4x512x1x255, .i32⟩
  | .hbm, ⟨61, _⟩ => ⟨S4x512x1x255x1, .i32⟩
  | .hbm, ⟨62, _⟩ => ⟨S1, .i32⟩
  | .hbm, ⟨63, _⟩ => ⟨S_, .i32⟩
  | .hbm, ⟨64, _⟩ => ⟨S4x512x1x255x1, .i32⟩
  | .hbm, ⟨65, _⟩ => ⟨S4x512x1x255x1, .i1⟩
  | .hbm, ⟨66, _⟩ => ⟨S1x1x1x1x1, .i32⟩
  | .hbm, ⟨67, _⟩ => ⟨S4x512x1x255x1, .i32⟩
  | .hbm, ⟨68, _⟩ => ⟨S4x512x1x255x1, .i1⟩
  | .hbm, ⟨69, _⟩ => ⟨S4x512x1x255x1, .i1⟩
  | .hbm, ⟨70, _⟩ => ⟨S_, .i1⟩
  | .hbm, ⟨71, _⟩ => ⟨S4x512x1x255, .i1⟩
  | .hbm, ⟨72, _⟩ => ⟨S4x512x1x255, .f32⟩
  | .hbm, ⟨73, _⟩ => ⟨S_, .f32⟩
  | .hbm, ⟨74, _⟩ => ⟨S4x512x1x255, .f32⟩
  | .hbm, ⟨75, _⟩ => ⟨S4x512x1x255, .f32⟩
  | .hbm, ⟨76, _⟩ => ⟨S4x512x255, .f32⟩
  | .hbm, ⟨77, _⟩ => ⟨S1x512x255, .f32⟩
  | .hbm, ⟨78, _⟩ => ⟨S4x512x255, .f32⟩
  | .hbm, ⟨79, _⟩ => ⟨S4x512x255, .f32⟩
  | .hbm, ⟨80, _⟩ => ⟨S_, .f32⟩
  | .hbm, ⟨81, _⟩ => ⟨S4x512, .f32⟩
  | .hbm, ⟨82, _⟩ => ⟨S1x512, .f32⟩
  | .hbm, ⟨83, _⟩ => ⟨S_, .f32⟩
  | .hbm, ⟨84, _⟩ => ⟨S1x512, .f32⟩
  | .hbm, ⟨85, _⟩ => ⟨S1x512, .f32⟩
  | .hbm, ⟨86, _⟩ => ⟨S4x512, .f32⟩
  | .hbm, ⟨87, _⟩ => ⟨S4x512, .f32⟩
  | .hbm, ⟨88, _⟩ => ⟨S_, .f32⟩
  | .hbm, ⟨89, _⟩ => ⟨S4x512, .f32⟩
  | .hbm, ⟨90, _⟩ => ⟨S4x512, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S512x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_cst : Ref sig .tc := ⟨.hbm, 36, rfl⟩
abbrev main_call1_v14 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_cst : Ref sig .tc := ⟨.hbm, 41, rfl⟩
abbrev main_v9 : Ref sig .tc := ⟨.hbm, 42, rfl⟩
abbrev main_v10 : Ref sig .tc := ⟨.hbm, 43, rfl⟩
abbrev main_c_1 : Ref sig .tc := ⟨.hbm, 44, rfl⟩
abbrev main_c_2 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_call3_c : Ref sig .tc := ⟨.hbm, 54, rfl⟩
abbrev main_call3_v0 : Ref sig .tc := ⟨.hbm, 55, rfl⟩
abbrev main_call3_v1 : Ref sig .tc := ⟨.hbm, 56, rfl⟩
abbrev main_call3_c_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_c_1 : Ref sig .tc := ⟨.hbm, 62, rfl⟩
abbrev main_call3_c_2 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_c_3 : Ref sig .tc := ⟨.hbm, 70, rfl⟩
abbrev main_call3_v12 : Ref sig .tc := ⟨.hbm, 71, rfl⟩
abbrev main_call3_v13 : Ref sig .tc := ⟨.hbm, 72, rfl⟩
abbrev main_call3_cst : Ref sig .tc := ⟨.hbm, 73, rfl⟩
abbrev main_call3_v14 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_cst_3 : Ref sig .tc := ⟨.hbm, 80, rfl⟩
abbrev main_v19 : Ref sig .tc := ⟨.hbm, 81, rfl⟩
abbrev main_v20 : Ref sig .tc := ⟨.hbm, 82, rfl⟩
abbrev main_cst_4 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_cst_5 : Ref sig .tc := ⟨.hbm, 88, rfl⟩
abbrev main_v25 : Ref sig .tc := ⟨.hbm, 89, rfl⟩
abbrev main_v26 : Ref sig .tc := ⟨.hbm, 90, rfl⟩
abbrev main_cst_6 : Ref sig .tc := ⟨.hbm, 91, rfl⟩
abbrev main_v27 : Ref sig .tc := ⟨.hbm, 92, rfl⟩
abbrev main_cst_7 : Ref sig .tc := ⟨.hbm, 93, rfl⟩
abbrev main_v28 : Ref sig .tc := ⟨.hbm, 94, rfl⟩

abbrev nD : Nat := 1
abbrev τ : Topo := Topo.v7x

variable {F : FTy → Type} [FloatOps F]

class Facts₀ : Prop where
  slices_S512x256_S512x255_0_1 : S512x256.Slices ![0, 1] S512x255
  bcast_S_S512x255 : S_.BroadcastsInDim S512x255 (![] : Fin 0 → Fin S512x255.rank)
  slices_S512x256x256_S512x256x255_0_0_1 : S512x256x256.Slices ![0, 0, 1] S512x256x255
  bcast_S512x255_S512x1x255_0_2 : S512x255.BroadcastsInDim S512x1x255 (![0, 2] : Fin 2 → Fin S512x1x255.rank)
  bcast_S_S512x1x255 : S_.BroadcastsInDim S512x1x255 (![] : Fin 0 → Fin S512x1x255.rank)
  shapeCasts_S512x1x255_S512x1x255x1 : S512x1x255.ShapeCasts S512x1x255x1
  bcast_S_S512x1x255x1 : S_.BroadcastsInDim S512x1x255x1 (![] : Fin 0 → Fin S512x1x255x1.rank)
  bcast_S1_S1x1x1x1_3 : S1.BroadcastsInDim S1x1x1x1 (![3] : Fin 1 → Fin S1x1x1x1.rank)
  bcast_S1x1x1x1_S512x1x255x1_0_1_2_3 : S1x1x1x1.BroadcastsInDim S512x1x255x1 (![0, 1, 2, 3] : Fin 4 → Fin S512x1x255x1.rank)
  reducesTo_S512x1x255x1_S512x1x255_d3 : S512x1x255x1.ReducesTo [3] S512x1x255
  h_S_ : 0 < S_.numel
  shapeCasts_S512x1x255_S512x255 : S512x1x255.ShapeCasts S512x255
  reducesTo_S512x255_S512_d1 : S512x255.ReducesTo [1] S512
  slices_S4x512x256_S4x512x255_0_0_1 : S4x512x256.Slices ![0, 0, 1] S4x512x255
  bcast_S_S4x512x255 : S_.BroadcastsInDim S4x512x255 (![] : Fin 0 → Fin S4x512x255.rank)
  bcast_S4x512x255_S4x512x1x255_0_1_3 : S4x512x255.BroadcastsInDim S4x512x1x255 (![0, 1, 3] : Fin 3 → Fin S4x512x1x255.rank)
  bcast_S_S4x512x1x255 : S_.BroadcastsInDim S4x512x1x255 (![] : Fin 0 → Fin S4x512x1x255.rank)
  shapeCasts_S4x512x1x255_S4x512x1x255x1 : S4x512x1x255.ShapeCasts S4x512x1x255x1
  bcast_S_S4x512x1x255x1 : S_.BroadcastsInDim S4x512x1x255x1 (![] : Fin 0 → Fin S4x512x1x255x1.rank)
  bcast_S1_S1x1x1x1x1_4 : S1.BroadcastsInDim S1x1x1x1x1 (![4] : Fin 1 → Fin S1x1x1x1x1.rank)
  bcast_S1x1x1x1x1_S4x512x1x255x1_0_1_2_3_4 : S1x1x1x1x1.BroadcastsInDim S4x512x1x255x1 (![0, 1, 2, 3, 4] : Fin 5 → Fin S4x512x1x255x1.rank)
  reducesTo_S4x512x1x255x1_S4x512x1x255_d4 : S4x512x1x255x1.ReducesTo [4] S4x512x1x255
  shapeCasts_S4x512x1x255_S4x512x255 : S4x512x1x255.ShapeCasts S4x512x255
  bcast_S512x255_S1x512x255_1_2 : S512x255.BroadcastsInDim S1x512x255 (![1, 2] : Fin 2 → Fin S1x512x255.rank)
  bcast_S1x512x255_S4x512x255_0_1_2 : S1x512x255.BroadcastsInDim S4x512x255 (![0, 1, 2] : Fin 3 → Fin S4x512x255.rank)
  reducesTo_S4x512x255_S4x512_d2 : S4x512x255.ReducesTo [2] S4x512
  bcast_S512_S1x512_1 : S512.BroadcastsInDim S1x512 (![1] : Fin 1 → Fin S1x512.rank)
  bcast_S_S1x512 : S_.BroadcastsInDim S1x512 (![] : Fin 0 → Fin S1x512.rank)
  bcast_S1x512_S4x512_0_1 : S1x512.BroadcastsInDim S4x512 (![0, 1] : Fin 2 → Fin S4x512.rank)
  bcast_S_S4x512 : S_.BroadcastsInDim S4x512 (![] : Fin 0 → Fin S4x512.rank)
  reducesTo_S4x512_S_d0_1 : S4x512.ReducesTo [0, 1] S_
  gather_S512x256x255_S512x1x255x1_S512x1x255_n_1_02_02_1_3_111_wf : GatherDims.WF S512x256x255 S512x1x255x1 S512x1x255 [] [1] [0, 2] [1] [0, 2] 3 ![1, 1, 1]
  gather_S512x256x255_S4x512x1x255x1_S4x512x1x255_n_1_02_13_1_4_111_wf : GatherDims.WF S512x256x255 S4x512x1x255x1 S4x512x1x255 [] [1] [0, 2] [1] [1, 3] 4 ![1, 1, 1]

variable [Facts₀]

def gather_S512x256x255_S512x1x255x1_S512x1x255_n_1_02_02_1_3_111 : GatherDims S512x256x255 S512x1x255x1 S512x1x255 where
  offsetDims := []
  collapsedSliceDims := [1]
  operandBatchingDims := [0, 2]
  startIndicesBatchingDims := [0, 2]
  startIndexMap := [1]
  indexVectorDim := 3
  sliceSizes := ![1, 1, 1]
  wf := gather_S512x256x255_S512x1x255x1_S512x1x255_n_1_02_02_1_3_111_wf
def gather_S512x256x255_S4x512x1x255x1_S4x512x1x255_n_1_02_13_1_4_111 : GatherDims S512x256x255 S4x512x1x255x1 S4x512x1x255 where
  offsetDims := []
  collapsedSliceDims := [1]
  operandBatchingDims := [0, 2]
  startIndicesBatchingDims := [1, 3]
  startIndexMap := [1]
  indexVectorDim := 4
  sliceSizes := ![1, 1, 1]
  wf := gather_S512x256x255_S4x512x1x255x1_S4x512x1x255_n_1_02_13_1_4_111_wf

class Facts : Prop extends Facts₀ where

variable [Facts]
-- ==== Proof.PreRange.lean ====
/-
  What the precondition says about the head words.

  Beside the finiteness of the arc scores, the precondition holds two conjuncts: every gold head word of a dependent
  `1 … 255`, and every head word of a dependent `1 … 255` of each of the four negative trees, lies in `[0, 255]` read
  signed. Each is printed as a slice dropping dependent 0, two signed comparisons with a broadcast constant, their
  conjunction, and an all-reduction; the three all-reductions are joined by `and`. Read back at one entry, the
  conjunction being one gives both comparisons at that entry.
-/
import proofs.«408479_j27238682591477_1_alg».proof.Pre_finite_inputs
import Idealize.ShloMosaic.Lib.ValueIdx
import Idealize.ShloMosaic.Lib.ValueLayout
import Idealize.ShloMosaic.Lib.Pipeline.Value
import Idealize.ShloMosaic.Lib.ReduceAll
import Idealize.ShloMosaic.Lib.WordArith
import Idealize.ShloMosaic.Lib.StableHlo.Predicate

noncomputable section

namespace Cert.TreeLoss

open Idealize.ShloMosaic Idealize.ShloMosaic.ValueIdx

variable {F : FTy → Type} [FloatOps F] [Cert.Pre_finite_inputs.Facts]

/-- The scalar shape has exactly one index. -/
instance subsingleton_scalar_idx : Subsingleton Cert.Pre_finite_inputs.S_.Idx :=
  ⟨fun _ _ => funext fun d => d.elim0⟩

/-- A 32-bit word whose signed comparisons `0 ≤ x` and `x ≤ 255` both come out one lies in `[0, 255]` read signed. -/
theorem range_of_cmpi (x : BitVec 32) (hge : IntOp.cmpi .sge x 0#32 = 1#1) (hle : IntOp.cmpi .sle x 255#32 = 1#1) :
    0 ≤ x.toInt ∧ x.toInt ≤ 255 := by
  rw [IntOp.cmpi_sge] at hge
  rw [IntOp.cmpi_sle] at hle
  have e0 : (0#32 : BitVec 32).toInt = 0 := by decide
  have e255 : (255#32 : BitVec 32).toInt = 255 := by decide
  rw [e0] at hge
  rw [e255] at hle
  exact ⟨hge, hle⟩

/-- Under the precondition, the gold head word of sentence `b` and dependent `k + 1` is in `[0, 255]`. -/
theorem gold_heads_in_range (a0 : FVec F Cert.Pre_finite_inputs.S512x256x256 .f32)
    (a1 a2 : IVec Cert.Pre_finite_inputs.S512x256 32) (a3 : IVec Cert.Pre_finite_inputs.S4x512x256 32)
    (h : Cert.Pre_finite_inputs.fn (F := F) a0 a1 a2 a3 = fun _ => 1#1) (b : Fin 512) (k : Fin 255) :
    0 ≤ (a1 (ix2 b (⟨k.val + 1, by omega⟩ : Fin 256))).toInt ∧ (a1 (ix2 b (⟨k.val + 1, by omega⟩ : Fin 256))).toInt ≤ 255 := by
  have h0 := congrFun h ValueIdx.ix0
  dsimp only [Cert.Pre_finite_inputs.fn, Cert.Pre_finite_inputs.fn_part1] at h0
  -- the predicate is (finite ∧ gold) ∧ neg; keep the gold conjunct
  obtain ⟨h12, -⟩ := IntOp.andi_eq_one.1 h0
  obtain ⟨-, h11⟩ := IntOp.andi_eq_one.1 h12
  -- the all-reduction being one gives its operand at entry (b, k) of the slice
  have e := Host.reduce_andi_all _ _ _ _ _ h11 (ix2 b k)
  obtain ⟨hge, hle⟩ := IntOp.andi_eq_one.1 e
  -- entry (b, k) of the slice is entry (b, k + 1) of the array
  have hs := extractStridedSlice_apply ![0, 1] a1 Cert.Pre_finite_inputs.Facts.slices_S512x256_S512x255_0_1 (ix2 b k)
    (ix2 b (⟨k.val + 1, by omega⟩ : Fin 256)) (fun a => match a with
      | ⟨0, _⟩ => by show b.val = 0 + b.val; omega
      | ⟨1, _⟩ => by show k.val + 1 = 1 + k.val; omega)
  rw [← hs]
  exact range_of_cmpi _ hge hle

/-- Under the precondition, the head word of negative tree `n`, sentence `b` and dependent `k + 1` is in `[0, 255]`. -/
theorem neg_heads_in_range (a0 : FVec F Cert.Pre_finite_inputs.S512x256x256 .f32)
    (a1 a2 : IVec Cert.Pre_finite_inputs.S512x256 32) (a3 : IVec Cert.Pre_finite_inputs.S4x512x256 32)
    (h : Cert.Pre_finite_inputs.fn (F := F) a0 a1 a2 a3 = fun _ => 1#1) (n : Fin 4) (b : Fin 512) (k : Fin 255) :
    0 ≤ (a3 (ix3 n b (⟨k.val + 1, by omega⟩ : Fin 256))).toInt ∧ (a3 (ix3 n b (⟨k.val + 1, by omega⟩ : Fin 256))).toInt ≤ 255 := by
  have h0 := congrFun h ValueIdx.ix0
  dsimp only [Cert.Pre_finite_inputs.fn, Cert.Pre_finite_inputs.fn_part1] at h0
  -- the predicate is (finite ∧ gold) ∧ neg; keep the conjunct of the negative trees
  obtain ⟨-, h20⟩ := IntOp.andi_eq_one.1 h0
  -- the all-reduction being one gives its operand at entry (n, b, k) of the slice
  have e := Host.reduce_andi_all _ _ _ _ _ h20 (ix3 n b k)
  obtain ⟨hge, hle⟩ := IntOp.andi_eq_one.1 e
  -- entry (n, b, k) of the slice is entry (n, b, k + 1) of the array
  have hs := extractStridedSlice_apply ![0, 0, 1] a3 Cert.Pre_finite_inputs.Facts.slices_S4x512x256_S4x512x255_0_0_1 (ix3 n b k)
    (ix3 n b (⟨k.val + 1, by omega⟩ : Fin 256)) (fun a => match a with
      | ⟨0, _⟩ => by show n.val = 0 + n.val; omega
      | ⟨1, _⟩ => by show b.val = 0 + b.val; omega
      | ⟨2, _⟩ => by show k.val + 1 = 1 + k.val; omega)
  rw [← hs]
  exact range_of_cmpi _ hge hle

end Cert.TreeLoss

end
-- ==== Proof.KernelHost.lean ====
/-
  The host operations around the kernel's one region, read at an entry.

  Before the region the host builds the dependent mask — the mask word converted to a float where the dependent is
  at least 1, zero at dependent 0 — and stacks the gold heads in front of the four negative trees' heads along a
  new leading axis of extent 5. After the region it cuts column 0 of the output `[512, 5]` as the gold totals and
  columns 1 … 4, transposed, as the negative totals, and forms the margin loss: the mean over the 4 · 512 pairs of
  `max (2 − gold + neg, 0)`. That last stretch is the same function of (gold totals, negative totals) in both
  programs; it is named once here and never opened.
-/
import proofs.«408479_j27238682591477_1_alg».proof.Proof.Gen.KernelIdeal.Frame
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run

noncomputable section

namespace Cert.TreeLoss

open Idealize.ShloMosaic Idealize.ShloMosaic.ValueIdx Idealize.ShloMosaic.TcCoe Idealize.SL.Sem Idealize.ShloMosaic.StableHlo
open Cert.KernelIdeal Cert.KernelIdeal.Gen

/-- The margin loss from the gold totals `[512]` and the negative totals `[4, 512]`: the sum over all pairs of
    `max (2 − gold[b] + neg[n, b], 0)`, divided by 2048. -/
def lossTail (gold : FVec Ideal S512 .f32) (neg : FVec Ideal S4x512 .f32) : FVec Ideal S_ .f32 :=
  Host.divf
    (Host.reduceAdd
      (maximumf
        (addf
          (broadcastInDim S4x512 ![0, 1] bcast_S1x512_S4x512_0_1
            (subf (broadcastInDim S1x512 ![] bcast_S_S1x512 (constant (F := Ideal) S_ .f32 0x40000000#32))
              (broadcastInDim S1x512 ![1] bcast_S512_S1x512_1 gold)))
          neg)
        (broadcastInDim S4x512 ![] bcast_S_S4x512 (constant (F := Ideal) S_ .f32 0x00000000#32)))
      (constant (F := Ideal) S_ .f32 0x00000000#32) reducesTo_S4x512_S_d0_1 h_S_)
    (constant (F := Ideal) S_ .f32 0x45000000#32)

variable (m : (ℓ : Loc nD τ sig) → Buf (Elt Ideal) ℓ)

/-- The output array `[512, 5]` as the region leaves it. -/
abbrev outArr (c : Dev nD) : S512x5.Idx → EReal := (dats m 0 c).arrAt 3 cfg0.N

/-- Column 0 of the output, as a vector over the sentences. -/
theorem gold_of_out (X : S512x5.Idx → EReal) (i : S512.Idx) :
    shapeCast S512 (extractStridedSlice S512x1 ![0, 0] X slices_S512x5_S512x1_0_0) shapeCasts_S512x1_S512 i
      = X (ix2 (i 0) (0 : Fin 5)) := by
  obtain ⟨p, rfl⟩ : ∃ p : Fin 512, i = ix1 p := ⟨i 0, eq_ix1 i⟩
  refine (shapeCast_apply _ shapeCasts_S512x1_S512 (ix1 p) (ix2 p (0 : Fin 1)) ?_).trans ?_
  · rw [Shape.rowMajor_val_two, Shape.rowMajor_val_one]
    show p.val * 1 + 0 = p.val
    omega
  · exact slice2_axis1_apply 0 X slices_S512x5_S512x1_0_0 p (0 : Fin 1) (0 : Fin 5) rfl

/-- Columns 1 … 4 of the output, transposed: entry `(n, b)` is the output at `(b, n + 1)`. -/
theorem neg_of_out (X : S512x5.Idx → EReal) (j : S4x512.Idx) :
    transpose S4x512 [1, 0] (extractStridedSlice S512x4 ![0, 1] X slices_S512x5_S512x4_0_1) transposes_S512x4_S4x512_1_0 j
      = X (ix2 (j 1) (⟨(j 0).val + 1, by have := idx2_lt0 (n0 := 4) (n1 := 512) j; omega⟩ : Fin 5)) := by
  obtain ⟨n, b, rfl⟩ : ∃ (n : Fin 4) (b : Fin 512), j = ix2 n b := ⟨j 0, j 1, eq_ix2 j⟩
  refine (transpose_ix2_apply _ transposes_S512x4_S4x512_1_0 n b).trans ?_
  exact slice2_axis1_apply 1 X slices_S512x5_S512x4_0_1 b n ⟨n.val + 1, by omega⟩ (by show n.val + 1 = 1 + n.val; omega)

/-- THE RESULT after the region: the margin loss of column 0 and of columns 1 … 4 of the output array. -/
theorem tail_eq (c : Dev nD) :
    (Pipeline.afterTail₀ cfgs (dats m) 0 (V0 m) [hostOps1] c main_v21 : S_.Idx → EReal)
      = lossTail (fun i => outArr m c (ix2 (i 0) (0 : Fin 5)))
          (fun j => outArr m c (ix2 (j 1) (⟨(j 0).val + 1, by have := idx2_lt0 (n0 := 4) (n1 := 512) j; omega⟩ : Fin 5))) := by
  unfold Pipeline.afterTail₀
  show StableHlo.after hostOps1 _ (Proc.devRef .tc main_v21) = _
  after_results
  have hW : Pipeline.withArrays (cfgs 0).spec c (V0 m c) (fun w => (dats m 0 c).arrAt w (cfgs 0).N) (Proc.devRef .tc main_v8)
      = outArr m c := Pipeline.withArrays_arr spec0 launch0.win.arr_inj c _ _ 3
  rw [hW]
  show lossTail _ _ = lossTail _ _
  refine congrArg₂ lossTail (funext fun i => ?_) (funext fun j => ?_)
  · exact gold_of_out (outArr m c) i
  · exact neg_of_out (outArr m c) j

/-! ## The arrays the region finds -/

/-- The four argument arrays as launched, and the three arrays the region stages, each named at its literal type. -/
abbrev arcA (c : Dev nD) : FVec Ideal S512x256x256 .f32 := m ((c.tc : Thread nD τ).loc main_arg0)
abbrev goldA (c : Dev nD) : IVec S512x256 32 := m ((c.tc : Thread nD τ).loc main_arg1)
abbrev maskA (c : Dev nD) : IVec S512x256 32 := m ((c.tc : Thread nD τ).loc main_arg2)
abbrev negA (c : Dev nD) : IVec S4x512x256 32 := m ((c.tc : Thread nD τ).loc main_arg3)
abbrev arcV (c : Dev nD) : FVec Ideal S512x256x256 .f32 := V m c main_arg0
abbrev headsV (c : Dev nD) : IVec S5x512x256 32 := V m c main_v7
abbrev dmaskV (c : Dev nD) : FVec Ideal S512x256 .f32 := V m c main_v5

/-- No host operation before the region writes the arc scores: the region finds them as launched. -/
theorem arcV_eq (c : Dev nD) : arcV m c = arcA m c := V_main_arg0 m c

/-- THE DEPENDENT MASK at `(b, d)`: the mask word as a float where the dependent's number is at least 1, else zero. -/
theorem depmask_apply (c : Dev nD) (b : Fin 512) (d : Fin 256) :
    dmaskV m c (ix2 b d)
      = Scalar.select (IntOp.cmpi .sge (BitVec.ofNat 32 d.val) (1#32))
          (FloatOps.sitofp (F := Ideal) .f32 (maskA m c (ix2 b d))) (Ideal.ofBits .f32 0x00000000#32) := by
  show (V m c main_v5 : S512x256.Idx → EReal) (ix2 b d)
      = Scalar.select (IntOp.cmpi .sge (BitVec.ofNat 32 d.val) (1#32))
          (FloatOps.sitofp (F := Ideal) .f32 ((m ((c.tc : Thread nD τ).loc main_arg2) : S512x256.Idx → BitVec 32) (ix2 b d)))
          (Ideal.ofBits .f32 0x00000000#32)
  have e : (V m c main_v5 : S512x256.Idx → EReal)
      = select (broadcastInDim S512x256 ![0, 1] bcast_S1x256_S512x256_0_1
            (cmpi .sge (broadcastInDim S1x256 ![1] bcast_S256_S1x256_1 (iotaInDim S256 32 0))
              (broadcastInDim S1x256 ![] bcast_S_S1x256 (constantI S_ 32 1#32))))
          (sitofp .f32 (m (c, Proc.devRef .tc main_arg2)))
          (broadcastInDim S512x256 ![] bcast_S_S512x256 (constant (F := Ideal) S_ .f32 0x00000000#32)) := by
    dsimp only [Gen.V, Gen.V0]
    simp only [Gen.hostOps0, Gen.hostOps0_1, Gen.hostOps0_2, List.flatten_cons, List.flatten_nil, List.append_nil,
      List.cons_append, List.nil_append]
    after_results
    rfl
  rw [e, select_apply]
  have hc : broadcastInDim S512x256 ![0, 1] bcast_S1x256_S512x256_0_1
        (cmpi .sge (broadcastInDim S1x256 ![1] bcast_S256_S1x256_1 (iotaInDim S256 32 0))
          (broadcastInDim S1x256 ![] bcast_S_S1x256 (constantI S_ 32 1#32))) (ix2 b d)
      = IntOp.cmpi .sge (BitVec.ofNat 32 d.val) (1#32) := by
    refine (broadcastInDim_apply _ bcast_S1x256_S512x256_0_1 _ (ix2 b d) (ix2 (0 : Fin 1) d)
      (fun a => match a with | ⟨0, _⟩ => rfl | ⟨1, _⟩ => rfl)).trans ?_
    show IntOp.cmpi .sge (broadcastInDim S1x256 ![1] bcast_S256_S1x256_1 (iotaInDim S256 32 0) (ix2 (0 : Fin 1) d))
        (broadcastInDim S1x256 ![] bcast_S_S1x256 (constantI S_ 32 1#32) (ix2 (0 : Fin 1) d)) = _
    rw [broadcastInDim_apply _ bcast_S256_S1x256_1 _ (ix2 (0 : Fin 1) d) (ix1 d) (fun a => match a with | ⟨0, _⟩ => rfl),
      broadcastInDim_apply _ bcast_S_S1x256 _ (ix2 (0 : Fin 1) d) ix0 (fun a => a.elim0)]
    rfl
  have hz : broadcastInDim S512x256 ![] bcast_S_S512x256 (constant (F := Ideal) S_ .f32 0x00000000#32) (ix2 b d)
      = Ideal.ofBits .f32 0x00000000#32 := by
    rw [broadcastInDim_apply _ bcast_S_S512x256 _ (ix2 b d) ix0 (fun a => a.elim0)]
    rfl
  rw [hc, hz]
  rfl

/-- THE STACKED HEADS at variant 0: the gold head word. -/
theorem heads_gold_apply (c : Dev nD) (b : Fin 512) (d : Fin 256) :
    headsV m c (ix3 (0 : Fin 5) b d) = goldA m c (ix2 b d) := by
  show (V m c main_v7 : S5x512x256.Idx → BitVec 32) (ix3 (0 : Fin 5) b d)
      = (m ((c.tc : Thread nD τ).loc main_arg1) : S512x256.Idx → BitVec 32) (ix2 b d)
  have e : (V m c main_v7 : S5x512x256.Idx → BitVec 32)
      = concatenate S5x512x256 0
          [⟨S1x512x256, broadcastInDim S1x512x256 ![1, 2] bcast_S512x256_S1x512x256_1_2 (m (c, Proc.devRef .tc main_arg1))⟩,
            ⟨S4x512x256, m (c, Proc.devRef .tc main_arg3)⟩]
          concatenates_S1x512x256_S4x512x256_S5x512x256_d0 := by
    dsimp only [Gen.V, Gen.V0]
    simp only [Gen.hostOps0, Gen.hostOps0_1, Gen.hostOps0_2, List.flatten_cons, List.flatten_nil, List.append_nil,
      List.cons_append, List.nil_append]
    after_results
  rw [e]
  refine (concatenate_pair_apply_left 0 _ _ concatenates_S1x512x256_S4x512x256_S5x512x256_d0 (ix3 (0 : Fin 5) b d) rfl
    (ix3 (0 : Fin 1) b d) (fun a => match a with | ⟨0, _⟩ => rfl | ⟨1, _⟩ => rfl | ⟨2, _⟩ => rfl)).trans ?_
  exact broadcastInDim_apply _ bcast_S512x256_S1x512x256_1_2 _ (ix3 (0 : Fin 1) b d) (ix2 b d)
    (fun a => match a with | ⟨0, _⟩ => rfl | ⟨1, _⟩ => rfl)

/-- THE STACKED HEADS at variant `n + 1`: the head word of negative tree `n`. -/
theorem heads_neg_apply (c : Dev nD) (n : Fin 4) (b : Fin 512) (d : Fin 256) :
    headsV m c (ix3 (⟨n.val + 1, by omega⟩ : Fin 5) b d) = negA m c (ix3 n b d) := by
  show (V m c main_v7 : S5x512x256.Idx → BitVec 32) (ix3 (⟨n.val + 1, by omega⟩ : Fin 5) b d)
      = (m ((c.tc : Thread nD τ).loc main_arg3) : S4x512x256.Idx → BitVec 32) (ix3 n b d)
  have e : (V m c main_v7 : S5x512x256.Idx → BitVec 32)
      = concatenate S5x512x256 0
          [⟨S1x512x256, broadcastInDim S1x512x256 ![1, 2] bcast_S512x256_S1x512x256_1_2 (m (c, Proc.devRef .tc main_arg1))⟩,
            ⟨S4x512x256, m (c, Proc.devRef .tc main_arg3)⟩]
          concatenates_S1x512x256_S4x512x256_S5x512x256_d0 := by
    dsimp only [Gen.V, Gen.V0]
    simp only [Gen.hostOps0, Gen.hostOps0_1, Gen.hostOps0_2, List.flatten_cons, List.flatten_nil, List.append_nil,
      List.cons_append, List.nil_append]
    after_results
  rw [e]
  exact concatenate_pair_apply_right 0 _ _ concatenates_S1x512x256_S4x512x256_S5x512x256_d0
    (ix3 (⟨n.val + 1, by omega⟩ : Fin 5) b d) rfl rfl (ix3 n b d)
    (fun a ha => match a, ha with
      | ⟨0, _⟩, ha => absurd rfl ha
      | ⟨1, _⟩, _ => rfl
      | ⟨2, _⟩, _ => rfl)
    (by show n.val + 1 = n.val + 1; rfl)

end Cert.TreeLoss

end
-- ==== Proof.KernelPay.lean ====
/-
  What the kernel body leaves in its output block, entry by entry.

  At a grid point the body holds an arc block `x0 : [16, 256, 256]` (sentence, head, dependent), the five head
  assignments' block `x1 : [5, 16, 256]` (variant, sentence, dependent) and the dependent-mask block `x2 : [16, 256]`.
  Entry `(p, v)` of what it stores is, for sentence `p` and variant `v`, the sum over the dependents `d` of
  (the sum over the candidate heads `h` of `x0[p, h, d]` where `h` equals the head word `x1[v, p, d]`, zero elsewhere)
  times `x2[p, d]`: a comparison with the head-axis iota, a select against zero, a lane sum over the head axis, a product
  and a lane sum over the dependents, five times over, the five columns laid side by side.
-/
import proofs.«408479_j27238682591477_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.TreeLoss

open Idealize.ShloMosaic Idealize.ShloMosaic.ValueIdx Cert.KernelIdeal Cert.KernelIdeal.Gen

namespace KernelPay

/-- One column of the stored block, as a function of the arc block, the mask block and ONE variant's head words
    `sl : [1, 16, 256]`: the head words are spread along the head axis and compared with that axis's iota, the arc
    entries are kept where the two agree and replaced by zero elsewhere, summed over the head axis, multiplied by the
    mask and summed over the dependents. -/
def score (x0 : Vec Ideal S16x256x256 .f32) (x2 : FVec Ideal S16x256 .f32) (sl : Vec Ideal S1x16x256 .i32) :
    FVec Ideal S16 .f32 :=
  multiReduction (F := Ideal) .add [1] S16
    (mulf (multiReduction (F := Ideal) .add [1] S16x256
      (select (cmpi .eq (iota .tc S16x256x256 32 [1] iota_S16x256x256_d1_w32)
          (broadcastTo S16x256x256 (shapeCast S16x1x256 (shapeCast S16x256 sl shapeCasts_S1x16x256_S16x256)
            shapeCasts_S16x256_S16x1x256) broadcasts_S16x1x256_S16x256x256))
        x0 (broadcast S16x256x256 (Scalar.ofBits .f32 0x00000000#32)))
      0x00000000#32 reduces_S16x256x256_S16x256 (.inl rfl) rfl) x2)
    0x00000000#32 reduces_S16x256_S16 (.inl rfl) rfl

/-- The first three columns are that function of their variant's head words (the mask passes through a cast onto its
    own shape first). -/
theorem pay3_eq (v0 : Vec Ideal S16x256x256 .f32) (v1 : Vec Ideal S16x256 .f32) (v4 : Vec Ideal S1x16x256 .i32) :
    k0_pay3 (F := Ideal) v0 v1 v4 = score v0 (k0_pay2 v1) v4 := rfl

theorem pay4_eq (v0 : Vec Ideal S16x256x256 .f32) (v1 : Vec Ideal S16x256 .f32) (v4 : Vec Ideal S1x16x256 .i32) :
    k0_pay4 (F := Ideal) v0 v1 v4 = score v0 (k0_pay2 v1) v4 := rfl

theorem pay5_eq (v0 : Vec Ideal S16x256x256 .f32) (v1 : Vec Ideal S16x256 .f32) (v4 : Vec Ideal S1x16x256 .i32) :
    k0_pay5 (F := Ideal) v0 v1 v4 = score v0 (k0_pay2 v1) v4 := rfl

/-- A cast onto the same shape changes nothing. -/
theorem pay2_eq (v1 : Vec Ideal S16x256 .f32) : k0_pay2 (F := Ideal) v1 = v1 := shapeCast_self v1 _

/-- The head words spread along the head axis: at `(p, h, d)` the word at `(0, p, d)`, whatever `h`. The spread
    reads `(p, 0, d)` of the `[16, 1, 256]` view, which sits at the row-major position of `(p, d)` in the `[16, 256]`
    view, which is `(0, p, d)` of the block. -/
theorem head_apply (sl : Vec Ideal S1x16x256 .i32) (p : Fin 16) (h d : Fin 256) :
    broadcastTo S16x256x256 (shapeCast S16x1x256 (shapeCast S16x256 sl shapeCasts_S1x16x256_S16x256)
            shapeCasts_S16x256_S16x1x256) broadcasts_S16x1x256_S16x256x256 (ix3 p h d) = sl (ix3 0 p d) := by
  refine (broadcastTo_apply _ _ (ix3 p h d) (ix3 p 0 d) (fun a => ?_)).trans ?_
  · match a with
    | ⟨0, _⟩ => rfl
    | ⟨1, _⟩ => rfl
    | ⟨2, _⟩ => rfl
  refine (shapeCast_apply _ _ (ix3 p 0 d) (ix2 p d) ?_).trans ?_
  · rw [Shape.rowMajor_val_three, Shape.rowMajor_val_two]
    show p.val * 256 + d.val = (p.val * 1 + 0) * 256 + d.val
    omega
  exact shapeCast_1ab_ab_apply sl _ p d

/-- A column at sentence `p`: the sum over the dependents `d` of (the sum over the heads `h` of the arc entry
    `(p, h, d)` where `h` is the head word at `(0, p, d)`, zero elsewhere) times the mask at `(p, d)`. Each lane sum
    is the sum over its axis's coordinates, the inserted index being `(p, d)`, then `(p, h, d)`. -/
theorem score_apply (x0 : Vec Ideal S16x256x256 .f32) (x2 : FVec Ideal S16x256 .f32) (sl : Vec Ideal S1x16x256 .i32)
    (p : Fin 16) :
    (score x0 x2 sl (ix1 p) : EReal)
      = ∑ d : Fin 256,
          (∑ h : Fin 256, Scalar.select (IntOp.cmpi .eq (BitVec.ofNat 32 h.val) (sl (ix3 0 p d))) (x0 (ix3 p h d) : EReal) (0 : EReal))
            * (x2 (ix2 p d) : EReal) := by
  unfold score
  refine (Ideal.multiReduction_add_single _ _ reduces_S16x256_S16 _ _ (ix1 p)).trans ?_
  refine Finset.sum_congr rfl fun (d : Fin 256) _ => ?_
  have e : reduces_S16x256_S16.lift (ix1 p) d = ix2 p d := by
    funext a
    match a with
    | ⟨0, _⟩ => rfl
    | ⟨1, _⟩ => rfl
  rw [e]
  refine (mulf_apply _ _ _).trans ?_
  congr 1
  refine (Ideal.multiReduction_add_single _ _ reduces_S16x256x256_S16x256 _ _ (ix2 p d)).trans ?_
  refine Finset.sum_congr rfl fun (h : Fin 256) _ => ?_
  have e2 : reduces_S16x256x256_S16x256.lift (ix2 p d) h = ix3 p h d := by
    funext a
    match a with
    | ⟨0, _⟩ => rfl
    | ⟨1, _⟩ => rfl
    | ⟨2, _⟩ => rfl
  rw [e2]
  refine (select_apply _ _ _ _).trans ?_
  rw [broadcast_apply]
  have hz : (FloatOps.ofBits (F := Ideal) .f32 0x00000000#32) = (0 : EReal) := Ideal.ofBits_zero_f32
  rw [hz]
  congr 1
  show IntOp.cmpi .eq (iota .tc S16x256x256 32 [1] iota_S16x256x256_d1_w32 (ix3 p h d))
      (broadcastTo S16x256x256 _ broadcasts_S16x1x256_S16x256x256 (ix3 p h d)) = _
  rw [iota_single_apply, head_apply]

/-- The zero offsets of a rank-2 and of a rank-3 block. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Variant `v`'s head words as a `[1, 16, 256]` block. -/
def slab (x1 : Vec Ideal S5x16x256 .i32) (v : Fin 5) : Vec Ideal S1x16x256 .i32 := fun i => x1 (ix3 v (i 1) (i 2))

/-- The `[1, 16, 256]` block of the head words read at offset `(v, 0, 0)` is variant `v`'s. -/
theorem ld_slab (x1 : Vec Ideal S5x16x256 .i32) (v : Fin 5)
    (inb : ∀ a, (![v.val, 0, 0] : Fin 3 → Nat) a + S1x16x256.size a ≤ S5x16x256.size a) :
    View.ld x1 (Rect.unit (s := S5x16x256) ![v.val, 0, 0] S1x16x256.size inb) = slab x1 v := by
  funext i
  show x1 _ = x1 _
  congr 1
  funext a
  apply Fin.ext
  match a with
  | ⟨0, _⟩ =>
    have h0 : (i 0).val < 1 := (i 0).isLt
    show v.val + 1 * (i 0).val = v.val
    omega
  | ⟨1, _⟩ => show 0 + 1 * (i 1).val = (i 1).val; omega
  | ⟨2, _⟩ => show 0 + 1 * (i 2).val = (i 2).val; omega

/-- The five columns side by side, at `(p, v)`: column `v` at `p`. The last two columns are the same function of their
    variant's head words, written out in place; each column is a `[16]` vector viewed `[16, 1]`, whose `(p, 0)` is its
    `p`. -/
theorem pay1_apply (v0 : Vec Ideal S16x256x256 .f32) (v2 : FVec Ideal S16x256 .f32) (v13 v23 v33 : FVec Ideal S16 .f32)
    (v34 v44 : Vec Ideal S1x16x256 .i32) (p : Fin 16) (v : Fin 5) :
    k0_pay1 (F := Ideal) v0 v2 (iota .tc S16x256x256 32 [1] iota_S16x256x256_d1_w32) v13 v23 v33 v34 v44 (ix2 p v)
      = (![v13, v23, v33, score v0 v2 v34, score v0 v2 v44] : Fin 5 → FVec Ideal S16 .f32) v (ix1 p) := by
  have e : k0_pay1 (F := Ideal) v0 v2 (iota .tc S16x256x256 32 [1] iota_S16x256x256_d1_w32) v13 v23 v33 v34 v44
      = concatenate S16x5 1 (List.ofFn fun n : Fin 5 =>
          (⟨S16x1, shapeCast S16x1 ((![v13, v23, v33, score v0 v2 v34, score v0 v2 v44] : Fin 5 → FVec Ideal S16 .f32) n)
            shapeCasts_S16_S16x1⟩ : (s : Shape) × (s.Idx → Ideal .f32)))
          concatenates_S16x1_S16x1_S16x1_S16x1_S16x1_S16x5_d1 := rfl
  rw [e]
  refine (concatenate_ofFn_unit_apply (t := S16x5) (s₁ := S16x1) (1 : Fin 2)
    (fun n : Fin 5 => shapeCast S16x1 ((![v13, v23, v33, score v0 v2 v34, score v0 v2 v44] : Fin 5 → FVec Ideal S16 .f32) n)
      shapeCasts_S16_S16x1)
    concatenates_S16x1_S16x1_S16x1_S16x1_S16x1_S16x5_d1 rfl rfl (ix2 p v) v rfl (ix2 p 0) ?_).trans ?_
  · intro b hb
    match b with
    | ⟨0, _⟩ => rfl
    | ⟨1, _⟩ => exact absurd rfl hb
  · exact shapeCast_apply _ _ _ (ix1 p) (by
      rw [Shape.rowMajor_val_one, Shape.rowMajor_val_two]
      show p.val = p.val * 1 + 0
      omega)

end KernelPay

open KernelPay in
/-- The stored block at `(p, v)`: the masked sum over the dependents of the arc entries the head words select. -/
theorem out_apply (x0 : Vec Ideal S16x256x256 .f32) (x1 : Vec Ideal S5x16x256 .i32) (x2 : Vec Ideal S16x256 .f32)
    (p : Fin 16) (v : Fin 5) :
    (out0_3 (F := Ideal) x0 x1 x2 (ix2 p v) : EReal)
      = ∑ d : Fin 256,
          (∑ h : Fin 256, Scalar.select (IntOp.cmpi .eq (BitVec.ofNat 32 h.val) (x1 (ix3 v p d))) (x0 (ix3 p h d) : EReal) (0 : EReal))
            * (x2 (ix2 p d) : EReal) := by
  unfold out0_3
  rw [View.canon_unit_zero hz2]
  rw [View.ld_unit_zero (S := S16x256x256) hz3, View.ld_unit_zero (S := S16x256) hz2]
  refine (pay1_apply _ _ _ _ _ _ _ p v).trans ?_
  rw [pay3_eq, pay4_eq, pay5_eq, pay2_eq]
  rw [show View.ld x1 r0_2 = slab x1 0 from ld_slab x1 0 _, show View.ld x1 r0_3 = slab x1 1 from ld_slab x1 1 _,
    show View.ld x1 r0_4 = slab x1 2 from ld_slab x1 2 _, show View.ld x1 r0_5 = slab x1 3 from ld_slab x1 3 _,
    show View.ld x1 r0_6 = slab x1 4 from ld_slab x1 4 _]
  have hc : (![score x0 x2 (slab x1 0), score x0 x2 (slab x1 1), score x0 x2 (slab x1 2), score x0 x2 (slab x1 3),
      score x0 x2 (slab x1 4)] : Fin 5 → FVec Ideal S16 .f32) v = score x0 x2 (slab x1 v) := by
    match v with
    | ⟨0, _⟩ => rfl
    | ⟨1, _⟩ => rfl
    | ⟨2, _⟩ => rfl
    | ⟨3, _⟩ => rfl
    | ⟨4, _⟩ => rfl
  rw [hc]
  exact score_apply x0 x2 (slab x1 v) p

end Cert.TreeLoss

end
-- ==== Proof.Spec.lean ====
/-
  The mathematics both programs compute, stated once, over literal shapes, and the facts about one head word
  that join them.

  For a sentence `b` and one assignment of heads `hd`, the tree score is the sum over the dependents
  `d = 1 … 255` of `arc[b, hd d, d] · mask[b, d]`. The reference reads `arc` at the head clipped into `[0, 255]`;
  the kernel sums over all 256 candidate heads `h` the entries `arc[b, h, d]` selected by `h = hd d` and multiplies
  the dependent `d = 0` by zero. For a head word in `[0, 255]` the clip is the identity and exactly one candidate is
  selected, so both are this sum.
-/
import Idealize.ShloMosaic.PureOps.Ideal
import Idealize.ShloMosaic.Lib.ValueIdx

noncomputable section

namespace Cert.TreeLoss

open Idealize.ShloMosaic Idealize.ShloMosaic.ValueIdx

/-- A head word that is an index into the head axis: `0 ≤ x ≤ 255` read signed. -/
def InRange (x : BitVec 32) : Prop := 0 ≤ x.toInt ∧ x.toInt ≤ 255

/-- The head axis position a head word names (total: the word's value modulo 256; the word itself when in range). -/
def headIx (x : BitVec 32) : Fin 256 := ⟨x.toNat % 256, Nat.mod_lt _ (by decide)⟩

/-- Dependent `k + 1`: the dependents the score sums over are `1 … 255`. -/
def dep (k : Fin 255) : Fin 256 := ⟨k.val + 1, by omega⟩

/-- The score of one tree of sentence `b`: over the dependents `1 … 255`, the arc score from the dependent's head,
    weighted by the mask word converted to a float. -/
def treeScore (A : FVec Ideal ⟨3, ![512, 256, 256]⟩ .f32) (hd mk : Fin 256 → BitVec 32) (b : Fin 512) : EReal :=
  ∑ k : Fin 255, A (ix3 b (headIx (hd (dep k))) (dep k)) * FloatOps.sitofp (F := Ideal) .f32 (mk (dep k))

/-! ## One head word in range -/

/-- A word in range read signed is its unsigned value, and that value is at most 255: the sign bit is clear, so the
    two readings agree. -/
theorem InRange.toInt_eq {x : BitVec 32} (h : InRange x) : x.toInt = (x.toNat : Int) ∧ x.toNat ≤ 255 := by
  obtain ⟨h0, h1⟩ := h
  have hlt : x.toNat < 4294967296 := x.isLt
  rw [BitVec.toInt_eq_toNat_cond] at h0 h1 ⊢
  split at h0 <;> omega

theorem headIx_val {x : BitVec 32} (h : InRange x) : (headIx x).val = x.toNat := by
  have hx := h.toInt_eq
  show x.toNat % 256 = x.toNat
  omega

/-- The reference's lower clip is the identity on a word in range. -/
theorem maxsi_zero {x : BitVec 32} (h : InRange x) : IntOp.maxsi (0#32) x = x := by
  -- `maxsi 0 x` is `0` only when `x < 0` read signed, which `0 ≤ x` excludes.
  have h0 : ¬ x.toInt < 0 := by have := h.1; omega
  simp [IntOp.maxsi, BitVec.slt, h0]

/-- The reference's upper clip is the identity on a word in range. -/
theorem minsi_255 {x : BitVec 32} (h : InRange x) : IntOp.minsi (255#32) x = x := by
  -- `minsi 255 x` is `255` only when `255 < x` read signed, which `x ≤ 255` excludes.
  have h255 : (255#32).toInt = 255 := by decide
  have h1 : ¬ (255 : Int) < x.toInt := by have := h.2; omega
  simp [IntOp.minsi, BitVec.slt, h255, h1]

/-- jnp's wrap of a negative index leaves a word in range alone. -/
theorem wrap_id {x : BitVec 32} (h : InRange x) :
    Scalar.select (IntOp.cmpi .slt x (0#32)) (IntOp.addi x (256#32)) x = x := by
  -- The test `x < 0` fails, so the select takes its second operand.
  have h0 : ¬ x.toInt < 0 := by have := h.1; omega
  have hc : IntOp.cmpi .slt x (0#32) = 0#1 := by simp [IntOp.cmpi, BitVec.slt, h0]
  rw [hc, select_zero]

/-- The gather's in-bounds test holds of a word in range. -/
theorem inb_one {x : BitVec 32} (h : InRange x) :
    IntOp.andi (IntOp.cmpi .sge x (0#32)) (IntOp.cmpi .sle x (255#32)) = 1#1 := by
  -- Both tests hold: `0 ≤ x` and `x ≤ 255` read signed.
  have h255 : (255#32).toInt = 255 := by decide
  have ha : IntOp.cmpi .sge x (0#32) = 1#1 := by simp [IntOp.cmpi, BitVec.sle, h.1]
  have hb : IntOp.cmpi .sle x (255#32) = 1#1 := by simp [IntOp.cmpi, BitVec.sle, h255, h.2]
  rw [ha, hb]; decide

/-- The gather's own clamp of the start index is the identity on a word in range. -/
theorem clamp_toNat {x : BitVec 32} (h : InRange x) : min x.toInt.toNat (256 - 1) = (headIx x).val := by
  have hx := h.toInt_eq
  rw [headIx_val h]
  omega

/-- The kernel's comparison of candidate head `h` with the head word selects exactly the word's own position. -/
theorem cmpi_eq_iota {x : BitVec 32} (h : InRange x) (c : Fin 256) :
    IntOp.cmpi .eq (BitVec.ofNat 32 c.val) x = if c = headIx x then 1#1 else 0#1 := by
  -- Two words are equal exactly when their unsigned values are; both `c` and `x` are below `256`.
  have hx := h.toInt_eq
  have hc : c.val < 256 := c.isLt
  have hiff : (BitVec.ofNat 32 c.val = x) ↔ c = headIx x := by
    rw [← BitVec.toNat_inj, Fin.ext_iff, headIx_val h, BitVec.toNat_ofNat]
    constructor <;> intro e <;> omega
  show BitVec.ofBool (BitVec.ofNat 32 c.val == x) = _
  by_cases hcx : c = headIx x
  · rw [if_pos hcx, beq_iff_eq.mpr (hiff.mpr hcx)]; rfl
  · rw [if_neg hcx, beq_eq_false_iff_ne.mpr (fun e => hcx (hiff.mp e))]; rfl

/-- Summing the selected candidates over the head axis leaves the entry at the word's own position. -/
theorem onehot_sum {x : BitVec 32} (h : InRange x) (f : Fin 256 → EReal) :
    ∑ c : Fin 256, Scalar.select (IntOp.cmpi .eq (BitVec.ofNat 32 c.val) x) (f c) (0 : EReal) = f (headIx x) := by
  -- Each summand is `f c` at `c = headIx x` and `0` elsewhere.
  have hterm : ∀ c : Fin 256, Scalar.select (IntOp.cmpi .eq (BitVec.ofNat 32 c.val) x) (f c) (0 : EReal)
      = if c = headIx x then f c else 0 := by
    intro c
    rw [cmpi_eq_iota h c]
    by_cases hcx : c = headIx x
    · rw [if_pos hcx, if_pos hcx, select_one]
    · rw [if_neg hcx, if_neg hcx, select_zero]
  simp only [hterm]
  rw [Finset.sum_ite_eq']
  simp

/-- The dependent mask's test fails at dependent 0 … -/
theorem sge_one_zero : IntOp.cmpi .sge (BitVec.ofNat 32 0) (1#32) = 0#1 := by
  -- `1 ≤ 0` read signed is false.
  decide

/-- … and holds at every dependent k + 1 (k < 255). -/
theorem sge_one_dep (k : Fin 255) : IntOp.cmpi .sge (BitVec.ofNat 32 (dep k).val) (1#32) = 1#1 := by
  -- The word `k + 1` is below `2 ^ 31`, so read signed it is `k + 1 ≥ 1`.
  have hk : k.val < 255 := k.isLt
  have h1 : (1#32).toInt = 1 := by decide
  have hle : (1#32).toInt ≤ (BitVec.ofNat 32 (dep k).val).toInt := by
    have hn : (dep k).val < 256 := (dep k).isLt
    have hpos : 1 ≤ (dep k).val := by show 1 ≤ k.val + 1; omega
    generalize (dep k).val = n at hn hpos ⊢
    rw [h1, BitVec.toInt_eq_toNat_cond, BitVec.toNat_ofNat]
    have hmod : n % 2 ^ 32 = n := Nat.mod_eq_of_lt (by omega)
    rw [hmod, if_pos (by omega)]
    omega
  show BitVec.ofBool ((1#32).sle (BitVec.ofNat 32 (dep k).val)) = 1#1
  have : (1#32).sle (BitVec.ofNat 32 (dep k).val) = true := by
    simp only [BitVec.sle, decide_eq_true_eq]; exact hle
  rw [this]; rfl

end Cert.TreeLoss

end
-- ==== Proof.KernelValue.lean ====
/-
  What the kernel's output array holds after the run, and the kernel's result.

  Grid point `t` (of 32) stages sentences `16 t … 16 t + 15`: rows of the arc scores, of the stacked heads and of the
  dependent mask, and writes back rows `16 t … 16 t + 15` of the output `[512, 5]`. What it writes at `(p, v)` is the
  masked sum the body computes from its three blocks; read through the blocks' positions that is one function of the
  whole arrays at row `16 t + p`, the same at every point, and the 32 blocks tile the output. So after the run entry
  `(b, v)` of the output is the sum over the dependents `d` of (the arc entries `arc[b, h, d]` selected by
  `h = heads[v, b, d]`, summed over `h`) times the dependent mask at `(b, d)`.

  For head words in `[0, 255]` exactly one candidate head is selected, and the dependent mask is zero at dependent 0 and
  the mask word at the dependents `1 … 255`: the entry is the tree score of variant `v` (gold for `v = 0`, negative tree
  `v − 1` otherwise), and the kernel's result is the margin loss of those scores.
-/
import proofs.«408479_j27238682591477_1_alg».proof.Proof.KernelHost
import proofs.«408479_j27238682591477_1_alg».proof.Proof.KernelPay
import proofs.«408479_j27238682591477_1_alg».proof.Proof.Spec

set_option maxRecDepth 16384

noncomputable section

namespace Cert.TreeLoss

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ)

/-! ## The blocks' positions -/

/-- The printed index maps, decided over the grid: point `t` takes block row `t` of each array along the sentence axis
    and block 0 along every other axis. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = t.val ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 32 := lt_of_lt_of_eq t.isLt N_0

/-- Sentence `16 t + p`: row `p` of point `t`'s blocks. -/
def row (t : Fin cfg0.N) (p : Fin 16) : Fin 512 := ⟨16 * t.val + p.val, by have := point_lt t; omega⟩

/-- Row `p`, head `h`, dependent `d` of point `t`'s arc block is the arc scores at sentence `16 t + p`. -/
theorem arc_blk (c : Dev nD) (t : Fin cfg0.N) (p : Fin 16) (h d : Fin 256) :
    (iblk m c 0 t (ix3 p h d) : EReal) = arcV m c (ix3 (row t p) h d) := by
  obtain ⟨e0, e1, e2, -⟩ := idx_facts t
  show arcV m c (((cfg0.win 0).blk t).view.emb (ix3 p h d)) = _
  refine congrArg _ (funext fun a => Fin.ext ?_)
  match a with
  | ⟨0, _⟩ => show win0_0.index t (0 : Fin 3) * 16 + 1 * p.val = 16 * t.val + p.val; omega
  | ⟨1, _⟩ => show win0_0.index t (1 : Fin 3) * 256 + 1 * h.val = h.val; omega
  | ⟨2, _⟩ => show win0_0.index t (2 : Fin 3) * 256 + 1 * d.val = d.val; omega

/-- Variant `v`, row `p`, dependent `d` of point `t`'s heads block is the stacked heads at sentence `16 t + p`. -/
theorem heads_blk (c : Dev nD) (t : Fin cfg0.N) (v : Fin 5) (p : Fin 16) (d : Fin 256) :
    (iblk m c 1 t (ix3 v p d) : BitVec 32) = headsV m c (ix3 v (row t p) d) := by
  obtain ⟨-, -, -, e0, e1, e2, -⟩ := idx_facts t
  show headsV m c (((cfg0.win 1).blk t).view.emb (ix3 v p d)) = _
  refine congrArg _ (funext fun a => Fin.ext ?_)
  match a with
  | ⟨0, _⟩ => show win0_1.index t (0 : Fin 3) * 5 + 1 * v.val = v.val; omega
  | ⟨1, _⟩ => show win0_1.index t (1 : Fin 3) * 16 + 1 * p.val = 16 * t.val + p.val; omega
  | ⟨2, _⟩ => show win0_1.index t (2 : Fin 3) * 256 + 1 * d.val = d.val; omega

/-- Row `p`, dependent `d` of point `t`'s mask block is the dependent mask at sentence `16 t + p`. -/
theorem mask_blk (c : Dev nD) (t : Fin cfg0.N) (p : Fin 16) (d : Fin 256) :
    (iblk m c 2 t (ix2 p d) : EReal) = dmaskV m c (ix2 (row t p) d) := by
  obtain ⟨-, -, -, -, -, -, e0, e1, -⟩ := idx_facts t
  show dmaskV m c (((cfg0.win 2).blk t).view.emb (ix2 p d)) = _
  refine congrArg _ (funext fun a => Fin.ext ?_)
  match a with
  | ⟨0, _⟩ => show win0_2.index t (0 : Fin 2) * 16 + 1 * p.val = 16 * t.val + p.val; omega
  | ⟨1, _⟩ => show win0_2.index t (1 : Fin 2) * 256 + 1 * d.val = d.val; omega

/-! ## The output array -/

/-- The kernel's total at output entry `i = (b, v)`, from the arrays the region finds: over the dependents, the selected
    arc entries summed over the candidate heads, times the dependent mask. -/
def kTotal (c : Dev nD) (i : S512x5.Idx) : EReal :=
  ∑ d : Fin 256,
    (∑ h : Fin 256, Scalar.select
        (IntOp.cmpi .eq (BitVec.ofNat 32 h.val) (headsV m c (ix3 (i 1) (i 0) d))) (arcV m c (ix3 (i 0) h d)) (0 : EReal))
      * dmaskV m c (ix2 (i 0) d)

/-- WHAT POINT `t` WRITES BACK is block `t` of `kTotal`. -/
theorem flushed_eq (c : Dev nD) (t : Fin cfg0.N) :
    (dats m 0 c).flushed 3 t = ((cfg0.win 3).blk t).view.read (Elt Ideal) (kTotal m c) := by
  show (cfg0.win 3).cut (grid0.coords t) ((dats m 0 c).after 3 t) = _
  rw [after0_3]
  obtain ⟨-, -, -, -, -, -, -, -, e0, e1⟩ := idx_facts t
  funext j
  obtain ⟨p, v, rfl⟩ : ∃ (p : Fin 16) (v : Fin 5), j = ix2 p v := ⟨j 0, j 1, eq_ix2 j⟩
  refine (out_apply (iblk m c 0 t) (iblk m c 1 t) (iblk m c 2 t) p v).trans ?_
  have hemb : ((cfg0.win 3).blk t).view.emb (ix2 p v) = ix2 (row t p) v := funext fun a => Fin.ext (by
    match a with
    | ⟨0, _⟩ => show win0_3.index t (0 : Fin 2) * 16 + 1 * p.val = 16 * t.val + p.val; omega
    | ⟨1, _⟩ => show win0_3.index t (1 : Fin 2) * 5 + 1 * v.val = v.val; omega)
  show _ = kTotal m c (((cfg0.win 3).blk t).view.emb (ix2 p v))
  rw [hemb]
  unfold kTotal
  refine Finset.sum_congr rfl fun d _ => ?_
  refine congrArg₂ (fun (x y : EReal) => x * y) (Finset.sum_congr rfl fun h _ => ?_) (mask_blk m c t p d)
  exact congrArg₂ (fun (x : BitVec 32) (a : EReal) => Scalar.select (IntOp.cmpi .eq (BitVec.ofNat 32 h.val) x) a (0 : EReal))
    (heads_blk m c t v p d) (arc_blk m c t p h d)

/-- An entry of the output is in point `t`'s block iff each coordinate is in the block's range on its axis. -/
theorem mem_blk (t : Fin cfg0.N) (i : S512x5.Idx) :
    i ∈ ((cfg0.win 3).blk t).view.set ↔ ∀ a : Fin 2, win0_3.index t a * S16x5.size a ≤ (i a).val ∧ (i a).val < win0_3.index t a * S16x5.size a + S16x5.size a := by
  show i ∈ ((View.whole main_v8).slice (win0_3.rect t)).set ↔ _
  rw [View.set_slice_whole, Rect.mem_set_unit]
  exact Iff.rfl

/-- The 32 blocks tile the output: entry `(b, v)` lies in the block of point `b / 16`. -/
theorem covered (i : S512x5.Idx) : ∃ t : Fin cfg0.N, (cfg0.win 3).flush t = true ∧ i ∈ ((cfg0.win 3).blk t).view.set := by
  have hi0 : (i 0).val < 512 := idx2_lt0 (n0 := 512) (n1 := 5) i
  have hi1 : (i 1).val < 5 := idx2_lt1 (n0 := 512) (n1 := 5) i
  have hN : (i 0).val / 16 < cfg0.N := by rw [show cfg0.N = 32 from N_0]; omega
  refine ⟨⟨(i 0).val / 16, hN⟩, flush0_3 _, ?_⟩
  obtain ⟨-, -, -, -, -, -, -, -, e0, e1⟩ := idx_facts ⟨(i 0).val / 16, hN⟩
  rw [mem_blk]
  intro a
  match a with
  | ⟨0, _⟩ =>
    show win0_3.index ⟨(i 0).val / 16, hN⟩ (0 : Fin 2) * 16 ≤ (i 0).val ∧ (i 0).val < win0_3.index ⟨(i 0).val / 16, hN⟩ (0 : Fin 2) * 16 + 16
    rw [e0]; show (i 0).val / 16 * 16 ≤ (i 0).val ∧ (i 0).val < (i 0).val / 16 * 16 + 16; omega
  | ⟨1, _⟩ =>
    show win0_3.index ⟨(i 0).val / 16, hN⟩ (1 : Fin 2) * 5 ≤ (i 1).val ∧ (i 1).val < win0_3.index ⟨(i 0).val / 16, hN⟩ (1 : Fin 2) * 5 + 5
    rw [e1]; omega

/-- THE OUTPUT ARRAY after the run is `kTotal`. -/
theorem out_final (c : Dev nD) : outArr m c = kTotal m c :=
  (dats m 0 c).arrAt_eq_of_cover 3 (kTotal m c) (fun t _ => flushed_eq m c t) covered

/-! ## The totals are tree scores -/

/-- For head words in range on the dependents `1 … 255`, the kernel's total of a row is the tree score: the dependent
    0 term is a product with zero, and at each other dependent exactly the head word's own candidate is selected. -/
theorem total_eq_score (A : FVec Ideal ⟨3, ![512, 256, 256]⟩ .f32) (hd mk : Fin 256 → BitVec 32) (DM : Fin 256 → EReal) (b : Fin 512)
    (hDM : ∀ d : Fin 256, DM d = Scalar.select (IntOp.cmpi .sge (BitVec.ofNat 32 d.val) (1#32))
      (FloatOps.sitofp (F := Ideal) .f32 (mk d)) (Ideal.ofBits .f32 0x00000000#32))
    (hR : ∀ k : Fin 255, InRange (hd (dep k))) :
    (∑ d : Fin 256, (∑ h : Fin 256, Scalar.select (IntOp.cmpi .eq (BitVec.ofNat 32 h.val) (hd d)) (A (ix3 b h d)) (0 : EReal)) * DM d)
      = treeScore A hd mk b := by
  rw [Fin.sum_univ_succ]
  have h0 : DM 0 = 0 := by
    rw [hDM 0]
    show Scalar.select (IntOp.cmpi .sge (BitVec.ofNat 32 0) (1#32)) _ _ = _
    rw [sge_one_zero, select_zero, Ideal.ofBits_zero_f32]
  rw [h0, mul_zero, zero_add]
  unfold treeScore
  refine Finset.sum_congr rfl fun k _ => ?_
  have hk : (Fin.succ k : Fin 256) = dep k := Fin.ext (by simp [dep])
  rw [hk, onehot_sum (hR k) (fun h => A (ix3 b h (dep k))), hDM (dep k), sge_one_dep k, select_one]

/-! ## The kernel's result -/

/-- THE LOSS as one function of the four argument arrays: the margin loss of the gold trees' scores and of the
    negative trees' scores. -/
def lossOf (A : FVec Ideal ⟨3, ![512, 256, 256]⟩ .f32) (H1 M : IVec ⟨2, ![512, 256]⟩ 32) (H3 : IVec ⟨3, ![4, 512, 256]⟩ 32) :
    FVec Ideal S_ .f32 :=
  lossTail (fun i => treeScore A (fun d => H1 (ix2 (i 0) d)) (fun d => M (ix2 (i 0) d)) (i 0))
    (fun j => treeScore A (fun d => H3 (ix3 (j 0) (j 1) d)) (fun d => M (ix2 (j 1) d)) (j 1))

/-- Column 0 of the output is the gold trees' scores. -/
theorem out_gold (c : Dev nD)
    (hG : ∀ (b : Fin 512) (k : Fin 255), InRange (goldA m c (ix2 b (dep k)))) (b : Fin 512) :
    outArr m c (ix2 b (0 : Fin 5))
      = treeScore (arcA m c) (fun d => goldA m c (ix2 b d)) (fun d => maskA m c (ix2 b d)) b := by
  rw [out_final]
  have hH : (fun d : Fin 256 => headsV m c (ix3 (0 : Fin 5) b d)) = fun d => goldA m c (ix2 b d) :=
    funext fun d => heads_gold_apply m c b d
  show (∑ d : Fin 256, (∑ h : Fin 256, Scalar.select
      (IntOp.cmpi .eq (BitVec.ofNat 32 h.val) ((fun d : Fin 256 => headsV m c (ix3 (0 : Fin 5) b d)) d))
      (arcV m c (ix3 b h d)) (0 : EReal)) * dmaskV m c (ix2 b d)) = _
  rw [hH, arcV_eq]
  exact total_eq_score (arcA m c) (fun d => goldA m c (ix2 b d)) (fun d => maskA m c (ix2 b d))
    (fun d => dmaskV m c (ix2 b d)) b (fun d => depmask_apply m c b d) (hG b)

/-- Column `n + 1` of the output is negative tree `n`'s scores. -/
theorem out_neg (c : Dev nD)
    (hN : ∀ (n : Fin 4) (b : Fin 512) (k : Fin 255), InRange (negA m c (ix3 n b (dep k)))) (n : Fin 4) (b : Fin 512) :
    outArr m c (ix2 b (⟨n.val + 1, by omega⟩ : Fin 5))
      = treeScore (arcA m c) (fun d => negA m c (ix3 n b d)) (fun d => maskA m c (ix2 b d)) b := by
  rw [out_final]
  have hH : (fun d : Fin 256 => headsV m c (ix3 (⟨n.val + 1, by omega⟩ : Fin 5) b d)) = fun d => negA m c (ix3 n b d) :=
    funext fun d => heads_neg_apply m c n b d
  show (∑ d : Fin 256, (∑ h : Fin 256, Scalar.select
      (IntOp.cmpi .eq (BitVec.ofNat 32 h.val) ((fun d : Fin 256 => headsV m c (ix3 (⟨n.val + 1, by omega⟩ : Fin 5) b d)) d))
      (arcV m c (ix3 b h d)) (0 : EReal)) * dmaskV m c (ix2 b d)) = _
  rw [hH, arcV_eq]
  exact total_eq_score (arcA m c) (fun d => negA m c (ix3 n b d)) (fun d => maskA m c (ix2 b d))
    (fun d => dmaskV m c (ix2 b d)) b (fun d => depmask_apply m c b d) (hN n b)

/-- THE KERNEL'S RUN, read: under head words in range every weakly fair execution ends with the result at the loss of the
    argument arrays, and the argument arrays unchanged. -/
theorem kernel_run (ρ : Dev nD → PrngReg)
    (hG : ∀ (c : Dev nD) (b : Fin 512) (k : Fin 255), InRange (goldA m c (ix2 b (dep k))))
    (hN : ∀ (c : Dev nD) (n : Fin 4) (b : Fin 512) (k : Fin 255), InRange (negA m c (ix3 n b (dep k)))) :
    θ_run defs (onTc (τ := τ) (main (F := Ideal))) ⟨m, fun _ => 0, ρ⟩ (fun r => ∀ c : Dev nD,
      r.2.mem ((c.tc : Thread nD τ).loc main_v21)
          = lossOf (arcA m c) (goldA m c) (maskA m c) (negA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((h c).2 main_v21 (Pipeline.mem_restRefs_of main_v21 (by decide) (by decide))).trans (tail_eq m c)).trans
        (congrArg₂ lossTail (funext fun i => out_gold m c (hG c) (i 0))
          (funext fun j => out_neg m c (hN c) (j 0) (j 1))),
      ((h c).1 0).trans ((((dats m 0 c).arrAt_in 0 rfl _).trans ((A_eq m c 0).trans (V_main_arg0 m c)))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.TreeLoss

end
-- ==== Proof.LibAlongAxisGather.lean ====
/-
  `jnp.take_along_axis` along the MIDDLE axis of a rank-3 operand, read at an entry.

  For an operand `x : [B, N, C]` and one integer per `(b, c)`, jax lowers `take_along_axis(x, idx[:, None, :], axis=1)`
  to a `stablehlo.gather` whose operand axes 0 and 2 are batching axes paired with the start indices' own axes, axis 1
  is collapsed and is the one axis the start index addresses, and every slice has size one. Result entry `(b, 0, c)` is
  then `x[b, s, c]` with `s` the start index at `(b, 0, c, 0)` read signed and clamped into `[0, N − 1]`, as StableHLO
  clamps every start index. The second form carries a leading stack axis `K` on the indices only (a `vmap` over trees
  sharing one operand): entry `(n, b, 0, c)` is `x[b, s, c]` with `s` the start index at `(n, b, 0, c, 0)`.
-/
import Idealize.ShloMosaic.Lib.ValueIdx

noncomputable section

namespace Cert.TreeLoss

open Idealize.ShloMosaic Idealize.ShloMosaic.ValueIdx

variable {α : Type}

/-- The dimension numbers of `take_along_axis` on axis 1 for an operand `[B, N, C]`, start indices `[B, 1, C, 1]` and
    result `[B, 1, C]`; their conditions `wf` are decided on a program's literal shapes. -/
abbrev alongDims (B N C : Nat)
    (wf : GatherDims.WF ⟨3, ![B, N, C]⟩ ⟨4, ![B, 1, C, 1]⟩ ⟨3, ![B, 1, C]⟩ [] [1] [0, 2] [1] [0, 2] 3 ![1, 1, 1]) :
    GatherDims ⟨3, ![B, N, C]⟩ ⟨4, ![B, 1, C, 1]⟩ ⟨3, ![B, 1, C]⟩ where
  offsetDims := []
  collapsedSliceDims := [1]
  operandBatchingDims := [0, 2]
  startIndicesBatchingDims := [0, 2]
  startIndexMap := [1]
  indexVectorDim := 3
  sliceSizes := ![1, 1, 1]
  wf := wf

/-- THE GATHER READ AT `(b, 0, c)`: the operand at row `b`, column `c` and the start index `idx[b, 0, c, 0]`, read signed
    and clamped into `[0, N − 1]`. -/
theorem gather_along_apply {B N C w : Nat} (hN : 0 < N)
    (wf : GatherDims.WF ⟨3, ![B, N, C]⟩ ⟨4, ![B, 1, C, 1]⟩ ⟨3, ![B, 1, C]⟩ [] [1] [0, 2] [1] [0, 2] 3 ![1, 1, 1])
    (x : (⟨3, ![B, N, C]⟩ : Shape).Idx → α) (idx : IVec ⟨4, ![B, 1, C, 1]⟩ w) (b : Fin B) (c : Fin C) :
    Host.gather (alongDims B N C wf) x idx (ix3 b (0 : Fin 1) c)
      = x (ix3 b ⟨min (idx (ix4 b (0 : Fin 1) c (0 : Fin 1))).toInt.toNat (N - 1), by omega⟩ c) := by
  unfold Host.gather
  congr 1
  funext a
  refine Fin.ext ?_
  -- per operand axis the index read is start + batching coordinate + offset coordinate
  match a with
  | ⟨0, _⟩ =>
    -- axis 0 is a batching axis: start and offset vanish, the batching coordinate is the result's coordinate 0
    show (alongDims B N C wf).start (ix3 b (0 : Fin 1) c) idx 0 + (alongDims B N C wf).batchCoord (ix3 b (0 : Fin 1) c) 0
      + (alongDims B N C wf).offCoord (ix3 b (0 : Fin 1) c) 0 = _
    rw [GatherDims.start_batching _ _ _ _ (by simp),
      GatherDims.offCoord_eq_zero _ _ _ (fun h => ((GatherDims.mem_sKept _ _).mp h).2 (by simp))]
    simp only [Nat.add_zero, Nat.zero_add]
    unfold GatherDims.batchCoord
    rw [dif_pos (show (0 : Fin 3) ∈ (alongDims B N C wf).operandBatchingDims by simp)]
    rfl
  | ⟨1, _⟩ =>
    -- axis 1 is collapsed and addressed by the start index: only the clamped start survives
    show (alongDims B N C wf).start (ix3 b (0 : Fin 1) c) idx 1 + (alongDims B N C wf).batchCoord (ix3 b (0 : Fin 1) c) 1
      + (alongDims B N C wf).offCoord (ix3 b (0 : Fin 1) c) 1 = _
    rw [GatherDims.batchCoord_eq_zero _ _ _ (by simp),
      GatherDims.offCoord_eq_zero _ _ _ (fun h => ((GatherDims.mem_sKept _ _).mp h).1 (by simp))]
    simp only [Nat.add_zero]
    unfold GatherDims.start
    rw [dif_pos (show (1 : Fin 3) ∈ (alongDims B N C wf).startIndexMap from List.mem_singleton.mpr rfl)]
    have hsi : (alongDims B N C wf).siIdx (ix3 b (0 : Fin 1) c) ⟨List.idxOf (1 : Fin 3) (alongDims B N C wf).startIndexMap,
        List.idxOf_lt_length_iff.2 (List.mem_singleton.mpr rfl)⟩ = ix4 b (0 : Fin 1) c (0 : Fin 1) := by
      funext e; refine Fin.ext ?_
      match e with
      | ⟨0, _⟩ => rfl
      | ⟨1, _⟩ => rfl
      | ⟨2, _⟩ => rfl
      | ⟨3, _⟩ => rfl
    rw [hsi]
    rfl
  | ⟨2, _⟩ =>
    -- axis 2 is a batching axis: the batching coordinate is the result's coordinate 2
    show (alongDims B N C wf).start (ix3 b (0 : Fin 1) c) idx 2 + (alongDims B N C wf).batchCoord (ix3 b (0 : Fin 1) c) 2
      + (alongDims B N C wf).offCoord (ix3 b (0 : Fin 1) c) 2 = _
    rw [GatherDims.start_batching _ _ _ _ (by simp),
      GatherDims.offCoord_eq_zero _ _ _ (fun h => ((GatherDims.mem_sKept _ _).mp h).2 (by simp))]
    simp only [Nat.add_zero, Nat.zero_add]
    unfold GatherDims.batchCoord
    rw [dif_pos (show (2 : Fin 3) ∈ (alongDims B N C wf).operandBatchingDims by simp)]
    rfl

/-- The same with a leading stack axis `K` on the start indices `[K, B, 1, C, 1]` and the result `[K, B, 1, C]`: the operand's
    batching axes 0 and 2 pair with the indices' axes 1 and 3. -/
abbrev alongDimsStack (K B N C : Nat)
    (wf : GatherDims.WF ⟨3, ![B, N, C]⟩ ⟨5, ![K, B, 1, C, 1]⟩ ⟨4, ![K, B, 1, C]⟩ [] [1] [0, 2] [1] [1, 3] 4 ![1, 1, 1]) :
    GatherDims ⟨3, ![B, N, C]⟩ ⟨5, ![K, B, 1, C, 1]⟩ ⟨4, ![K, B, 1, C]⟩ where
  offsetDims := []
  collapsedSliceDims := [1]
  operandBatchingDims := [0, 2]
  startIndicesBatchingDims := [1, 3]
  startIndexMap := [1]
  indexVectorDim := 4
  sliceSizes := ![1, 1, 1]
  wf := wf

/-- THE STACKED GATHER READ AT `(n, b, 0, c)`: the operand at row `b`, column `c` and the start index
    `idx[n, b, 0, c, 0]`, read signed and clamped into `[0, N − 1]`. -/
theorem gather_along_stack_apply {K B N C w : Nat} (hN : 0 < N)
    (wf : GatherDims.WF ⟨3, ![B, N, C]⟩ ⟨5, ![K, B, 1, C, 1]⟩ ⟨4, ![K, B, 1, C]⟩ [] [1] [0, 2] [1] [1, 3] 4 ![1, 1, 1])
    (x : (⟨3, ![B, N, C]⟩ : Shape).Idx → α) (idx : IVec ⟨5, ![K, B, 1, C, 1]⟩ w) (n : Fin K) (b : Fin B) (c : Fin C) :
    Host.gather (alongDimsStack K B N C wf) x idx (ix4 n b (0 : Fin 1) c)
      = x (ix3 b ⟨min (idx (ix5 n b (0 : Fin 1) c (0 : Fin 1))).toInt.toNat (N - 1), by omega⟩ c) := by
  unfold Host.gather
  congr 1
  funext a
  refine Fin.ext ?_
  -- per operand axis the index read is start + batching coordinate + offset coordinate
  match a with
  | ⟨0, _⟩ =>
    -- operand axis 0 pairs with the indices' axis 1, which the result's coordinate 1 supplies
    show (alongDimsStack K B N C wf).start (ix4 n b (0 : Fin 1) c) idx 0 + (alongDimsStack K B N C wf).batchCoord (ix4 n b (0 : Fin 1) c) 0
      + (alongDimsStack K B N C wf).offCoord (ix4 n b (0 : Fin 1) c) 0 = _
    rw [GatherDims.start_batching _ _ _ _ (by simp),
      GatherDims.offCoord_eq_zero _ _ _ (fun h => ((GatherDims.mem_sKept _ _).mp h).2 (by simp))]
    simp only [Nat.add_zero, Nat.zero_add]
    unfold GatherDims.batchCoord
    rw [dif_pos (show (0 : Fin 3) ∈ (alongDimsStack K B N C wf).operandBatchingDims by simp)]
    rfl
  | ⟨1, _⟩ =>
    -- axis 1 is collapsed and addressed by the start index: only the clamped start survives
    show (alongDimsStack K B N C wf).start (ix4 n b (0 : Fin 1) c) idx 1 + (alongDimsStack K B N C wf).batchCoord (ix4 n b (0 : Fin 1) c) 1
      + (alongDimsStack K B N C wf).offCoord (ix4 n b (0 : Fin 1) c) 1 = _
    rw [GatherDims.batchCoord_eq_zero _ _ _ (by simp),
      GatherDims.offCoord_eq_zero _ _ _ (fun h => ((GatherDims.mem_sKept _ _).mp h).1 (by simp))]
    simp only [Nat.add_zero]
    unfold GatherDims.start
    rw [dif_pos (show (1 : Fin 3) ∈ (alongDimsStack K B N C wf).startIndexMap from List.mem_singleton.mpr rfl)]
    have hsi : (alongDimsStack K B N C wf).siIdx (ix4 n b (0 : Fin 1) c) ⟨List.idxOf (1 : Fin 3) (alongDimsStack K B N C wf).startIndexMap,
        List.idxOf_lt_length_iff.2 (List.mem_singleton.mpr rfl)⟩ = ix5 n b (0 : Fin 1) c (0 : Fin 1) := by
      funext e; refine Fin.ext ?_
      match e with
      | ⟨0, _⟩ => rfl
      | ⟨1, _⟩ => rfl
      | ⟨2, _⟩ => rfl
      | ⟨3, _⟩ => rfl
      | ⟨4, _⟩ => rfl
    rw [hsi]
    rfl
  | ⟨2, _⟩ =>
    -- operand axis 2 pairs with the indices' axis 3, which the result's coordinate 3 supplies
    show (alongDimsStack K B N C wf).start (ix4 n b (0 : Fin 1) c) idx 2 + (alongDimsStack K B N C wf).batchCoord (ix4 n b (0 : Fin 1) c) 2
      + (alongDimsStack K B N C wf).offCoord (ix4 n b (0 : Fin 1) c) 2 = _
    rw [GatherDims.start_batching _ _ _ _ (by simp),
      GatherDims.offCoord_eq_zero _ _ _ (fun h => ((GatherDims.mem_sKept _ _).mp h).2 (by simp))]
    simp only [Nat.add_zero, Nat.zero_add]
    unfold GatherDims.batchCoord
    rw [dif_pos (show (2 : Fin 3) ∈ (alongDimsStack K B N C wf).operandBatchingDims by simp)]
    rfl

end Cert.TreeLoss

end
-- ==== Proof.LibReduceAndOne.lean ====
/-
  An and-reduction of one-bit words all equal to one, from an initial value one, is one.

  A one-operand `stablehlo.reduce` whose body is `and` folds, at each result index `j`, the operand's elements that
  reduce into `j` onto the initial value. If the initial value is the word 1 and each of those elements is the word 1,
  every step of the fold is `1 and 1 = 1`, so the result at `j` is 1. This is the converse of the library's
  `Host.reduce_andi_eq_one` (a result 1 had only 1s), and holds at any shapes and any reduced axes — in particular for
  the reduction over a trailing axis of extent one that `take_along_axis` applies to its in-bounds test.
-/
import Idealize.ShloMosaic.Lib.ReduceAll

namespace Cert.TreeLoss

open Idealize.ShloMosaic

/-- A left fold by `and` over one-bit words, started at 1, that meets only 1s is 1. -/
theorem foldl_andi_of_all_one {ι : Type} (f : ι → BitVec 1) :
    ∀ (l : List ι), (∀ n ∈ l, f n = 1#1) → l.foldl (fun r n => IntOp.andi r (f n)) 1#1 = 1#1
  | [], _ => rfl
  | a :: l, h => by
    -- one step: `1 and f a = 1 and 1 = 1`; then the rest of the list
    rw [List.foldl_cons, h a (List.mem_cons_self ..), IntOp.andi_eq_one.2 ⟨rfl, rfl⟩]
    exact foldl_andi_of_all_one f l (fun n hn => h n (List.mem_cons_of_mem _ hn))

/-- A one-operand `stablehlo.reduce` by `and` whose initial value is 1 is 1 at result index `j` when every operand
    element that reduces into `j` is 1: the converse of `Host.reduce_andi_eq_one`, at any shapes and axes. -/
theorem reduce_andi_of_all_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  -- the reduce at `j` is the left fold over the operand indices that drop to `j`, in row-major order
  rw [Host.reduce_eq_foldl, hinit]
  exact foldl_andi_of_all_one x _ (fun i hi => hx i (of_decide_eq_true (List.mem_filter.1 hi).2))

end Cert.TreeLoss
-- ==== Proof.RefValue.lean ====
/-
  What the reference computes for the gold tree, entry by entry.

  The reference drops dependent 0 from the head words and from the mask, clips each head word into `[0, 255]`, wraps a
  negative index (none is left after the clip), gathers `arc[b, head, d]` along the head axis of the arc scores with
  dependent 0 dropped, keeps the gathered entry where the index passed the in-bounds test (every clipped index does),
  multiplies by the mask word converted to a float and sums over the 255 dependents. For head words already in
  `[0, 255]` every one of these steps but the gather, the product and the sum is the identity, and the result is the
  tree score of the gold heads. (The four negative trees go the same way with a stack axis in front.)
-/
import proofs.«408479_j27238682591477_1_alg».proof.Proof.RefRead
import proofs.«408479_j27238682591477_1_alg».proof.Proof.Spec
import proofs.«408479_j27238682591477_1_alg».proof.Proof.LibAlongAxisGather
import proofs.«408479_j27238682591477_1_alg».proof.Proof.LibReduceAndOne
import Idealize.ShloMosaic.Lib.ValueIdx
import Idealize.ShloMosaic.Lib.ValueLayout
import Idealize.ShloMosaic.Lib.Pipeline.Value
import Idealize.ShloMosaic.Lib.ReduceAll
import Idealize.ShloMosaic.PureOps.Ideal.Laws

noncomputable section

namespace Cert.TreeLoss

open Idealize.ShloMosaic Idealize.ShloMosaic.ValueIdx Cert.ReferenceIdeal Cert.ReferenceIdeal.Gen Cert.ReferenceIdeal.ReadP

/-! ## The gold tree, one dependent at a time -/

/-- The clipped head word of dependent `k + 1` is the head word itself. -/
theorem gold_v3 (H1 : (⟨S512x256, .i32⟩ : BufTy).Contents (Elt Ideal)) {b : Fin 512} {k : Fin 255}
    (hw : InRange (H1 (ix2 b (dep k)))) : val_main_v3 (F := Ideal) H1 (ix2 b k) = H1 (ix2 b (dep k)) := by
  -- the slice that drops dependent 0 reads column `1 + k`
  have hidx : idx_main_v2 (ix2 b k) = ix2 b (dep k) := by
    funext a
    match a with
    | ⟨0, _⟩ => rfl
    | ⟨1, _⟩ => exact Fin.ext (by show 1 + k.val = k.val + 1; omega)
  rw [val_main_v3_apply, val_main_call0_v4_apply, val_main_call0_v3_apply, val_main_c_0_apply,
    val_main_call0_v2_apply, val_main_call0_v1_apply, val_main_call0_v0_apply, val_main_c_apply,
    val_main_v2_apply, hidx, maxsi_zero hw, minsi_255 hw]

/-- With a unit axis inserted it is still that word. -/
theorem gold_v5 (H1 : (⟨S512x256, .i32⟩ : BufTy).Contents (Elt Ideal)) {b : Fin 512} {k : Fin 255}
    (hw : InRange (H1 (ix2 b (dep k)))) : val_main_v5 (F := Ideal) H1 (ix3 b (0 : Fin 1) k) = H1 (ix2 b (dep k)) := by
  have hidx : idx_main_v5 (ix3 b (0 : Fin 1) k) = ix2 b k := by
    funext a
    match a with
    | ⟨0, _⟩ => rfl
    | ⟨1, _⟩ => rfl
  rw [val_main_v5_apply, hidx, gold_v3 H1 hw]

/-- jnp's wrap of a negative index leaves it alone. -/
theorem gold_call1_v4 (H1 : (⟨S512x256, .i32⟩ : BufTy).Contents (Elt Ideal)) {b : Fin 512} {k : Fin 255}
    (hw : InRange (H1 (ix2 b (dep k)))) :
    val_main_call1_v4 (F := Ideal) H1 (ix3 b (0 : Fin 1) k) = H1 (ix2 b (dep k)) := by
  rw [val_main_call1_v4_apply, val_main_call1_v1_apply, val_main_call1_v3_apply, val_main_call1_v0_apply,
    val_main_call1_c_apply, val_main_call1_v2_apply, val_main_call1_c_0_apply, gold_v5 H1 hw]
  exact wrap_id hw

/-- The start index the gather is given at `(b, 0, k, 0)` is the head word of dependent `k + 1`. -/
theorem gold_call1_v5 (H1 : (⟨S512x256, .i32⟩ : BufTy).Contents (Elt Ideal)) {b : Fin 512} {k : Fin 255}
    (hw : InRange (H1 (ix2 b (dep k)))) :
    val_main_call1_v5 (F := Ideal) H1 (ix4 b (0 : Fin 1) k (0 : Fin 1)) = H1 (ix2 b (dep k)) := by
  -- the reshape appends a unit axis: position `(b, 0, k, 0)` is position `(b, 0, k)`
  have hidx : idx_main_call1_v5 (ix4 b (0 : Fin 1) k (0 : Fin 1)) = ix3 b (0 : Fin 1) k := by
    funext a
    have hb : b.val < 512 := b.isLt
    have hk : k.val < 255 := k.isLt
    match a with
    | ⟨0, _⟩ => exact Fin.ext (by show (((b.val * 1 + 0) * 255 + k.val) * 1 + 0) / 255 = b.val; omega)
    | ⟨1, _⟩ => rfl
    | ⟨2, _⟩ => exact Fin.ext (by show (((b.val * 1 + 0) * 255 + k.val) * 1 + 0) % 255 = k.val; omega)
  rw [val_main_call1_v5_apply, hidx, gold_call1_v4 H1 hw]

/-- Every start index passes the gather's in-bounds test. -/
theorem gold_call1_v11 (H1 : (⟨S512x256, .i32⟩ : BufTy).Contents (Elt Ideal))
    (hR : ∀ (b : Fin 512) (k : Fin 255), InRange (H1 (ix2 b (dep k)))) (i : S512x1x255x1.Idx) :
    val_main_call1_v11 (F := Ideal) H1 i = 1#1 := by
  -- the two unit coordinates are 0
  have h1 : (i 1).val < 1 := (i 1).isLt
  have h3 : (i 3).val < 1 := (i 3).isLt
  obtain ⟨b, k, rfl⟩ : ∃ (b : Fin 512) (k : Fin 255), i = ix4 b (0 : Fin 1) k (0 : Fin 1) :=
    ⟨i 0, i 2, funext fun a => by
      match a with
      | ⟨0, _⟩ => rfl
      | ⟨1, _⟩ => exact Fin.ext (by show (i 1).val = 0; omega)
      | ⟨2, _⟩ => rfl
      | ⟨3, _⟩ => exact Fin.ext (by show (i 3).val = 0; omega)⟩
  rw [val_main_call1_v11_apply, val_main_call1_v7_apply, val_main_call1_v10_apply, val_main_call1_v6_apply,
    val_main_call1_c_2_apply, val_main_call1_v9_apply, val_main_call1_v8_apply, val_main_call1_c_1_apply,
    gold_call1_v5 H1 (hR b k)]
  exact inb_one (hR b k)

/-- … so the test reduced over the trailing unit axis holds everywhere. -/
theorem gold_call1_v12 (H1 : (⟨S512x256, .i32⟩ : BufTy).Contents (Elt Ideal))
    (hR : ∀ (b : Fin 512) (k : Fin 255), InRange (H1 (ix2 b (dep k)))) (j : S512x1x255.Idx) :
    val_main_call1_v12 (F := Ideal) H1 j = 1#1 := by
  unfold val_main_call1_v12
  exact reduce_andi_of_all_one _ _ _ _ j rfl (fun i _ => gold_call1_v11 H1 hR i)

/-- The gather reads the arc score from the dependent's head. -/
theorem gold_call1_v13 (A : (⟨S512x256x256, .f32⟩ : BufTy).Contents (Elt Ideal))
    (H1 : (⟨S512x256, .i32⟩ : BufTy).Contents (Elt Ideal)) {b : Fin 512} {k : Fin 255}
    (hw : InRange (H1 (ix2 b (dep k)))) :
    val_main_call1_v13 (F := Ideal) A H1 (ix3 b (0 : Fin 1) k) = A (ix3 b (headIx (H1 (ix2 b (dep k)))) (dep k)) := by
  unfold val_main_call1_v13
  -- the printed dimension numbers are those of a take along the middle axis
  show Host.gather (alongDims 512 256 255 gather_S512x256x255_S512x1x255x1_S512x1x255_n_1_02_02_1_3_111_wf)
    (val_main_v4 (F := Ideal) A) (val_main_call1_v5 (F := Ideal) H1) (ix3 b (0 : Fin 1) k) = _
  refine (gather_along_apply (by decide) _ _ _ b k).trans ?_
  rw [val_main_v4_apply]
  refine congrArg A (funext fun a => ?_)
  match a with
  | ⟨0, _⟩ => rfl
  | ⟨1, _⟩ =>
    -- the clamped start index is the head word's position
    refine Fin.ext ?_
    show min (val_main_call1_v5 (F := Ideal) H1 (ix4 b (0 : Fin 1) k (0 : Fin 1))).toInt.toNat (256 - 1)
      = (headIx (H1 (ix2 b (dep k)))).val
    rw [gold_call1_v5 H1 hw]
    exact clamp_toNat hw
  | ⟨2, _⟩ => exact Fin.ext (by show 1 + k.val = k.val + 1; omega)

/-- The gathered score survives the select and the reshape that drops the unit axis. -/
theorem gold_v7 (A : (⟨S512x256x256, .f32⟩ : BufTy).Contents (Elt Ideal))
    (H1 : (⟨S512x256, .i32⟩ : BufTy).Contents (Elt Ideal))
    (hR : ∀ (b : Fin 512) (k : Fin 255), InRange (H1 (ix2 b (dep k)))) (b : Fin 512) (k : Fin 255) :
    val_main_v7 (F := Ideal) A H1 (ix2 b k) = A (ix3 b (headIx (H1 (ix2 b (dep k)))) (dep k)) := by
  have hidx : idx_main_v7 (ix2 b k) = ix3 b (0 : Fin 1) k := by
    funext a
    have hb : b.val < 512 := b.isLt
    have hk : k.val < 255 := k.isLt
    match a with
    | ⟨0, _⟩ => exact Fin.ext (by show (b.val * 255 + k.val) / 255 = b.val; omega)
    | ⟨1, _⟩ => rfl
    | ⟨2, _⟩ => exact Fin.ext (by show (b.val * 255 + k.val) % 255 = k.val; omega)
  rw [val_main_v7_apply, hidx, val_main_v6_apply, gold_call1_v12 H1 hR, select_one, gold_call1_v13 A H1 (hR b k)]

/-- One summand of the reference's gold total: the arc score from the dependent's head times the mask word as a float. -/
theorem gold_v8 (A : (⟨S512x256x256, .f32⟩ : BufTy).Contents (Elt Ideal))
    (H1 M : (⟨S512x256, .i32⟩ : BufTy).Contents (Elt Ideal))
    (hR : ∀ (b : Fin 512) (k : Fin 255), InRange (H1 (ix2 b (dep k)))) (b : Fin 512) (k : Fin 255) :
    val_main_v8 (F := Ideal) A H1 M (ix2 b k)
      = (A (ix3 b (headIx (H1 (ix2 b (dep k)))) (dep k)) : EReal)
        * (FloatOps.sitofp (F := Ideal) .f32 (M (ix2 b (dep k))) : EReal) := by
  have hidx : idx_main_v0 (ix2 b k) = ix2 b (dep k) := by
    funext a
    match a with
    | ⟨0, _⟩ => rfl
    | ⟨1, _⟩ => exact Fin.ext (by show 1 + k.val = k.val + 1; omega)
  rw [val_main_v8_apply, gold_v7 A H1 hR, val_main_v1_apply, val_main_v0_apply, hidx]
  rfl

/-- The reference's gold total of sentence `b` is the tree score of the gold heads. -/
theorem ref_gold (A : (⟨S512x256x256, .f32⟩ : BufTy).Contents (Elt Ideal)) (H1 M : (⟨S512x256, .i32⟩ : BufTy).Contents (Elt Ideal))
    (hR : ∀ (b : Fin 512) (k : Fin 255), InRange (H1 (ix2 b (dep k)))) (b : Fin 512) :
    val_main_v9 (F := Ideal) A H1 M (ix1 b) = treeScore A (fun d => H1 (ix2 b d)) (fun d => M (ix2 b d)) b := by
  -- the sum over axis 1 starts from the zero word
  rw [val_main_v9_apply]
  show Ideal.ofBits .f32 0x00000000#32 + _ = _
  rw [Ideal.ofBits_zero_f32, zero_add]
  unfold treeScore
  refine Finset.sum_congr rfl fun k _ => ?_
  have hidx : idx_main_v9 (ix1 b) k = ix2 b k := by
    funext a
    match a with
    | ⟨0, _⟩ => rfl
    | ⟨1, _⟩ => rfl
  rw [hidx]
  exact gold_v8 A H1 M hR b k

end Cert.TreeLoss

end
-- ==== Proof.RefNeg.lean ====
/-
  What the reference computes for one negative tree, entry by entry.

  The four negative trees share the arc scores and the mask and carry a stack axis in front of their head words. For
  each the reference does what it does for the gold tree: it drops dependent 0, clips each head word into `[0, 255]`,
  wraps a negative index (none is left), gathers `arc[b, head, d]` along the head axis, keeps the gathered entry where
  the index passed the in-bounds test (every clipped index does), multiplies by the mask word as a float and sums
  over the 255 dependents. For head words already in `[0, 255]` that is the tree score of tree `n` and sentence `b`.
-/
import proofs.«408479_j27238682591477_1_alg».proof.Proof.RefRead
import proofs.«408479_j27238682591477_1_alg».proof.Proof.Spec
import proofs.«408479_j27238682591477_1_alg».proof.Proof.LibAlongAxisGather
import proofs.«408479_j27238682591477_1_alg».proof.Proof.LibReduceAndOne
import Idealize.ShloMosaic.Lib.ValueIdx
import Idealize.ShloMosaic.Lib.ValueLayout
import Idealize.ShloMosaic.Lib.Pipeline.Value
import Idealize.ShloMosaic.Lib.ReduceAll
import Idealize.ShloMosaic.PureOps.Ideal.Laws

noncomputable section

namespace Cert.TreeLoss

open Idealize.ShloMosaic Idealize.ShloMosaic.ValueIdx Cert.ReferenceIdeal Cert.ReferenceIdeal.Gen Cert.ReferenceIdeal.ReadP

/-! ## One head word through the reference's index chain

Throughout, `w` is the head word `H3[n, b, k + 1]` of tree `n`, sentence `b` and dependent `k + 1`, assumed in range. -/

/-- The clip into `[0, 255]` leaves the head word alone. -/
theorem neg_clip (H3 : (⟨S4x512x256, .i32⟩ : BufTy).Contents (Elt Ideal)) (n : Fin 4) (b : Fin 512) (k : Fin 255) (h : InRange (H3 (ix3 n b (dep k)))) :
    val_main_v11 (F := Ideal) H3 (ix3 n b k) = H3 (ix3 n b (dep k)) := by
  -- the slice `[·, ·, 1:]` reads dependent `k + 1`
  have e10 : idx_main_v10 (ix3 n b k) = ix3 n b (dep k) := by
    funext a; refine Fin.ext ?_
    match a with
    | ⟨0, _⟩ => rfl
    | ⟨1, _⟩ => rfl
    | ⟨2, _⟩ => show 1 + k.val = k.val + 1; omega
  rw [val_main_v11_apply, val_main_call2_v4_apply, val_main_call2_v3_apply, val_main_c_2_apply,
    val_main_call2_v2_apply, val_main_call2_v1_apply, val_main_call2_v0_apply, val_main_c_1_apply,
    val_main_v10_apply, e10, maxsi_zero h, minsi_255 h]

/-- The start index the gather reads at `(n, b, 0, k, 0)`, after the wrap of negative indices and the reshape that
    appends the index vector's axis, is still the head word. -/
theorem neg_index (H3 : (⟨S4x512x256, .i32⟩ : BufTy).Contents (Elt Ideal)) (n : Fin 4) (b : Fin 512) (k : Fin 255) (h : InRange (H3 (ix3 n b (dep k)))) :
    val_main_call3_v5 (F := Ideal) H3 (ix5 n b (0 : Fin 1) k (0 : Fin 1)) = H3 (ix3 n b (dep k)) := by
  have hn : n.val < 4 := n.isLt
  have hb : b.val < 512 := b.isLt
  have hk : k.val < 255 := k.isLt
  -- the reshape `[4, 512, 1, 255] → [4, 512, 1, 255, 1]` keeps the row-major position
  have e5 : idx_main_call3_v5 (ix5 n b (0 : Fin 1) k (0 : Fin 1)) = ix4 n b (0 : Fin 1) k := by
    funext a; refine Fin.ext ?_
    match a with
    | ⟨0, _⟩ => show ((((n.val * 512 + b.val) * 1 + 0) * 255 + k.val) * 1 + 0) / 130560 = n.val; omega
    | ⟨1, _⟩ => show ((((n.val * 512 + b.val) * 1 + 0) * 255 + k.val) * 1 + 0) / 255 % 512 = b.val; omega
    | ⟨2, _⟩ => rfl
    | ⟨3, _⟩ => show ((((n.val * 512 + b.val) * 1 + 0) * 255 + k.val) * 1 + 0) % 255 = k.val; omega
  -- the broadcast along the new unit axis 2 reads `(n, b, k)`
  have e13 : idx_main_v13 (ix4 n b (0 : Fin 1) k) = ix3 n b k := by
    funext a; refine Fin.ext ?_
    match a with
    | ⟨0, _⟩ => rfl
    | ⟨1, _⟩ => rfl
    | ⟨2, _⟩ => rfl
  have h13 : val_main_v13 (F := Ideal) H3 (ix4 n b (0 : Fin 1) k) = H3 (ix3 n b (dep k)) := by
    rw [val_main_v13_apply, e13, neg_clip H3 n b k h]
  rw [val_main_call3_v5_apply, e5, val_main_call3_v4_apply, val_main_call3_v1_apply, val_main_call3_v3_apply, h13,
    val_main_call3_v0_apply, val_main_call3_c_apply, val_main_call3_v2_apply, val_main_call3_c_0_apply]
  exact wrap_id h

/-- The gather's in-bounds bit at `(n, b, 0, k, 0)` is 1. -/
theorem neg_inb_at (H3 : (⟨S4x512x256, .i32⟩ : BufTy).Contents (Elt Ideal)) (n : Fin 4) (b : Fin 512) (k : Fin 255) (h : InRange (H3 (ix3 n b (dep k)))) :
    val_main_call3_v11 (F := Ideal) H3 (ix5 n b (0 : Fin 1) k (0 : Fin 1)) = 1#1 := by
  rw [val_main_call3_v11_apply, val_main_call3_v7_apply, val_main_call3_v10_apply, neg_index H3 n b k h,
    val_main_call3_v6_apply, val_main_call3_c_2_apply, val_main_call3_v9_apply, val_main_call3_v8_apply,
    val_main_call3_c_1_apply]
  exact inb_one h

/-- With every head word in range the in-bounds bit is 1 at every index: the two unit axes carry coordinate 0. -/
theorem neg_inb (H3 : (⟨S4x512x256, .i32⟩ : BufTy).Contents (Elt Ideal))
    (hR : ∀ (n : Fin 4) (b : Fin 512) (k : Fin 255), InRange (H3 (ix3 n b (dep k)))) (i : S4x512x1x255x1.Idx) :
    val_main_call3_v11 (F := Ideal) H3 i = 1#1 := by
  have ei : i = ix5 (⟨(i 0).val, (i 0).isLt⟩ : Fin 4) (⟨(i 1).val, (i 1).isLt⟩ : Fin 512) (0 : Fin 1)
      (⟨(i 3).val, (i 3).isLt⟩ : Fin 255) (0 : Fin 1) := by
    funext a; refine Fin.ext ?_
    match a with
    | ⟨0, _⟩ => rfl
    | ⟨1, _⟩ => rfl
    | ⟨2, _⟩ => have h2 : (i 2).val < 1 := (i 2).isLt; show (i 2).val = 0; omega
    | ⟨3, _⟩ => rfl
    | ⟨4, _⟩ => have h4 : (i 4).val < 1 := (i 4).isLt; show (i 4).val = 0; omega
  rw [ei]
  exact neg_inb_at H3 _ _ _ (hR _ _ _)

/-- So the reduce by `and` over the trailing unit axis is 1 at every result index. -/
theorem neg_keep (H3 : (⟨S4x512x256, .i32⟩ : BufTy).Contents (Elt Ideal))
    (hR : ∀ (n : Fin 4) (b : Fin 512) (k : Fin 255), InRange (H3 (ix3 n b (dep k)))) (j : S4x512x1x255.Idx) :
    val_main_call3_v12 (F := Ideal) H3 j = 1#1 := by
  unfold val_main_call3_v12
  exact reduce_andi_of_all_one _ _ _ _ j rfl (fun i _ => neg_inb H3 hR i)

/-- The gather at `(n, b, 0, k)` reads the arc score of sentence `b` from head `w` to dependent `k + 1`. -/
theorem neg_gather (A : (⟨S512x256x256, .f32⟩ : BufTy).Contents (Elt Ideal)) (H3 : (⟨S4x512x256, .i32⟩ : BufTy).Contents (Elt Ideal)) (n : Fin 4) (b : Fin 512) (k : Fin 255) (h : InRange (H3 (ix3 n b (dep k)))) :
    val_main_call3_v13 (F := Ideal) A H3 (ix4 n b (0 : Fin 1) k)
      = (A : FVec Ideal ⟨3, ![512, 256, 256]⟩ .f32) (ix3 b (headIx (H3 (ix3 n b (dep k)))) (dep k)) := by
  unfold val_main_call3_v13
  -- the printed dimension numbers are those of `take_along_axis` on axis 1 with a leading stack axis
  refine (gather_along_stack_apply (K := 4) (B := 512) (N := 256) (C := 255) (w := 32) (by decide)
    gather_S512x256x255_S4x512x1x255x1_S4x512x1x255_n_1_02_13_1_4_111_wf (val_main_v12 (F := Ideal) A)
    (val_main_call3_v5 (F := Ideal) H3) n b k).trans ?_
  rw [val_main_v12_apply]
  congr 1
  funext a; refine Fin.ext ?_
  match a with
  | ⟨0, _⟩ => rfl
  | ⟨1, _⟩ =>
    -- the gather's own clamp of the start index is the identity on a word in range
    show min (val_main_call3_v5 (F := Ideal) H3 (ix5 n b (0 : Fin 1) k (0 : Fin 1))).toInt.toNat (256 - 1) = (headIx (H3 (ix3 n b (dep k)))).val
    rw [neg_index H3 n b k h]; exact clamp_toNat h
  | ⟨2, _⟩ => show 1 + k.val = k.val + 1; omega

/-- One dependent's term of the reference's sum: the gathered arc score times the mask word as a float. -/
theorem neg_term (A : (⟨S512x256x256, .f32⟩ : BufTy).Contents (Elt Ideal)) (M : (⟨S512x256, .i32⟩ : BufTy).Contents (Elt Ideal))
    (H3 : (⟨S4x512x256, .i32⟩ : BufTy).Contents (Elt Ideal))
    (hR : ∀ (n : Fin 4) (b : Fin 512) (k : Fin 255), InRange (H3 (ix3 n b (dep k)))) (n : Fin 4) (b : Fin 512) (k : Fin 255) :
    val_main_v18 (F := Ideal) A M H3 (ix3 n b k)
      = (A : FVec Ideal ⟨3, ![512, 256, 256]⟩ .f32) (ix3 b (headIx (H3 (ix3 n b (dep k)))) (dep k))
        * FloatOps.sitofp (F := Ideal) .f32 (M (ix2 b (dep k))) := by
  have hn : n.val < 4 := n.isLt
  have hb : b.val < 512 := b.isLt
  have hk : k.val < 255 := k.isLt
  have h := hR n b k
  -- the reshape `[4, 512, 1, 255] → [4, 512, 255]` keeps the row-major position
  have e15 : idx_main_v15 (ix3 n b k) = ix4 n b (0 : Fin 1) k := by
    funext a; refine Fin.ext ?_
    match a with
    | ⟨0, _⟩ => show ((n.val * 512 + b.val) * 255 + k.val) / 130560 = n.val; omega
    | ⟨1, _⟩ => show ((n.val * 512 + b.val) * 255 + k.val) / 255 % 512 = b.val; omega
    | ⟨2, _⟩ => rfl
    | ⟨3, _⟩ => show ((n.val * 512 + b.val) * 255 + k.val) % 255 = k.val; omega
  -- the mask is broadcast over the trees and sliced `[·, 1:]`: it is read at `(b, k + 1)`
  have e0 : idx_main_v0 (idx_main_v16 (idx_main_v17 (ix3 n b k))) = ix2 b (dep k) := by
    funext a; refine Fin.ext ?_
    match a with
    | ⟨0, _⟩ => rfl
    | ⟨1, _⟩ => show 1 + k.val = k.val + 1; omega
  have h15 : val_main_v15 (F := Ideal) A H3 (ix3 n b k)
      = (A : FVec Ideal ⟨3, ![512, 256, 256]⟩ .f32) (ix3 b (headIx (H3 (ix3 n b (dep k)))) (dep k)) := by
    rw [val_main_v15_apply, e15, val_main_v14_apply, neg_keep H3 hR, select_one, neg_gather A H3 n b k h]
  have h17 : val_main_v17 (F := Ideal) M (ix3 n b k) = FloatOps.sitofp (F := Ideal) .f32 (M (ix2 b (dep k))) := by
    rw [val_main_v17_apply, val_main_v16_apply, val_main_v1_apply, val_main_v0_apply, e0]
  exact (val_main_v18_apply A M H3 (ix3 n b k)).trans (congrArg₂ (FloatOps.mulf (F := Ideal)) h15 h17)

/-- The reference's total of negative tree `n` and sentence `b` is the tree score of that tree's heads. -/
theorem ref_neg (A : (⟨S512x256x256, .f32⟩ : BufTy).Contents (Elt Ideal)) (M : (⟨S512x256, .i32⟩ : BufTy).Contents (Elt Ideal))
    (H3 : (⟨S4x512x256, .i32⟩ : BufTy).Contents (Elt Ideal))
    (hR : ∀ (n : Fin 4) (b : Fin 512) (k : Fin 255), InRange (H3 (ix3 n b (dep k)))) (n : Fin 4) (b : Fin 512) :
    val_main_v19 (F := Ideal) A M H3 (ix2 n b) = treeScore A (fun d => H3 (ix3 n b d)) (fun d => M (ix2 b d)) b := by
  -- the reduce over axis 2 reads `(n, b, k)` for `k = 0 … 254`
  have e19 : ∀ k : Fin 255, idx_main_v19 (ix2 n b) k = ix3 n b k := by
    intro k; funext a; refine Fin.ext ?_
    match a with
    | ⟨0, _⟩ => rfl
    | ⟨1, _⟩ => rfl
    | ⟨2, _⟩ => rfl
  rw [val_main_v19_apply, val_main_cst_3_apply,
    show FloatOps.ofBits (F := Ideal) .f32 0x00000000#32 = (0 : EReal) from Ideal.ofBits_zero_f32, zero_add]
  unfold treeScore
  refine Finset.sum_congr rfl (fun k _ => ?_)
  rw [e19 k]
  exact neg_term A M H3 hR n b k

end Cert.TreeLoss

end
-- ==== Proof.RefLoss.lean ====
/-
  The reference's result is the loss of the argument arrays.

  The reference's last stretch — broadcast the gold totals, `2 − gold`, add the negative totals, `max (·, 0)`, sum,
  divide by 2048 — is, operation for operation, the stretch the kernel's program runs after its region; and the
  totals it is applied to are the tree scores. So the reference's result is the same function of the four argument
  arrays as the kernel's.
-/
import proofs.«408479_j27238682591477_1_alg».proof.Proof.RefValue
import proofs.«408479_j27238682591477_1_alg».proof.Proof.RefNeg
import proofs.«408479_j27238682591477_1_alg».proof.Proof.KernelValue

noncomputable section

namespace Cert.TreeLoss

open Idealize.ShloMosaic Idealize.ShloMosaic.ValueIdx Cert.ReferenceIdeal Cert.ReferenceIdeal.ReadP

/-- The reference's result is its last stretch applied to its gold totals and its negative totals. -/
theorem ref_result_tail (A : (⟨S512x256x256, .f32⟩ : BufTy).Contents (Elt Ideal)) (H1 M : (⟨S512x256, .i32⟩ : BufTy).Contents (Elt Ideal))
    (H3 : (⟨S4x512x256, .i32⟩ : BufTy).Contents (Elt Ideal)) :
    val_main_v28 (F := Ideal) A H1 M H3 = lossTail (val_main_v9 (F := Ideal) A H1 M) (val_main_v19 (F := Ideal) A M H3) := by
  unfold val_main_v28 val_main_v27 val_main_v26 val_main_v25 val_main_v24 val_main_v23 val_main_v22 val_main_v21 val_main_v20
    val_main_cst_7 val_main_cst_6 val_main_cst_5 val_main_cst_4 lossTail
  rfl

/-- THE REFERENCE'S RESULT for head words in range: the loss of the argument arrays. -/
theorem ref_loss (A : (⟨S512x256x256, .f32⟩ : BufTy).Contents (Elt Ideal)) (H1 M : (⟨S512x256, .i32⟩ : BufTy).Contents (Elt Ideal))
    (H3 : (⟨S4x512x256, .i32⟩ : BufTy).Contents (Elt Ideal))
    (hG : ∀ (b : Fin 512) (k : Fin 255), InRange (H1 (ix2 b (dep k))))
    (hN : ∀ (n : Fin 4) (b : Fin 512) (k : Fin 255), InRange (H3 (ix3 n b (dep k)))) :
    val_main_v28 (F := Ideal) A H1 M H3 = lossOf A H1 M H3 := by
  rw [ref_result_tail]
  unfold lossOf
  refine congrArg₂ lossTail (funext fun i => ?_) (funext fun j => ?_)
  · obtain ⟨b, rfl⟩ : ∃ b : Fin 512, i = ix1 b := ⟨i 0, eq_ix1 i⟩
    exact ref_gold A H1 M hG b
  · obtain ⟨n, b, rfl⟩ : ∃ (n : Fin 4) (b : Fin 512), j = ix2 n b := ⟨j 0, j 1, eq_ix2 j⟩
    exact ref_neg A M H3 hN n b

end Cert.TreeLoss

end
-- ==== Proof.lean ====
/-
  The contrastive tree loss: a Pallas kernel that gathers `arc[b, head, d]` by comparing the head word with an iota
  over the head axis, selecting against zero and summing, for the gold tree and four negative trees at once, against a
  jnp reference that clips the head words and gathers with `take_along_axis`.

  The statement carries, beside the finiteness of the arc scores, that every head word of a dependent `1 … 255`
  (gold and negative) lies in `[0, 255]`. Under it the reference's clip is the identity and the kernel's comparison
  selects exactly one candidate head, so both programs compute, for every sentence and tree, the tree score
  `Σ_{d = 1}^{255} arc[b, head d, d] · mask[b, d]`, and from the scores the same margin loss
  `mean max (2 − gold + neg, 0)`. No law of the extended reals beyond `x · 0 = 0`, `0 + x = x` and the sum of a
  function that vanishes off one point is used; the finiteness conjunct is not opened.

  The three frames: the kernel's two are the generated frame certificates; the reference's is its run with the result
  dropped. The ideal pass rewrote nothing, so `preserves` is `True`.
-/
import proofs.«408479_j27238682591477_1_alg».proof.Defs
import proofs.«408479_j27238682591477_1_alg».proof.Proof.Gen.Kernel
import proofs.«408479_j27238682591477_1_alg».proof.Proof.Gen.Kernel.Skeleton
import proofs.«408479_j27238682591477_1_alg».proof.Proof.Gen.Kernel.Launch
import proofs.«408479_j27238682591477_1_alg».proof.Proof.Gen.Kernel.Points
import proofs.«408479_j27238682591477_1_alg».proof.Proof.Gen.Kernel.Frame
import proofs.«408479_j27238682591477_1_alg».proof.Proof.Gen.KernelIdeal
import proofs.«408479_j27238682591477_1_alg».proof.Proof.Gen.KernelIdeal.Skeleton
import proofs.«408479_j27238682591477_1_alg».proof.Proof.Gen.KernelIdeal.Launch
import proofs.«408479_j27238682591477_1_alg».proof.Proof.Gen.KernelIdeal.Points
import proofs.«408479_j27238682591477_1_alg».proof.Proof.Gen.KernelIdeal.Frame
import proofs.«408479_j27238682591477_1_alg».proof.Proof.Gen.ReferenceIdeal
import proofs.«408479_j27238682591477_1_alg».proof.Proof.Gen.Pre_finite_inputs
import proofs.«408479_j27238682591477_1_alg».proof.Proof.RefRun
import proofs.«408479_j27238682591477_1_alg».proof.Proof.RefRead
import proofs.«408479_j27238682591477_1_alg».proof.Proof.PreRange
import proofs.«408479_j27238682591477_1_alg».proof.Proof.KernelValue
import proofs.«408479_j27238682591477_1_alg».proof.Proof.RefLoss
import Idealize.ShloMosaic.Adequacy
import Idealize.ShloMosaic.Init

noncomputable section

namespace Cert.Proof

open Idealize.ShloMosaic Idealize.ShloMosaic.ValueIdx Idealize.SL.Sem Cert.TreeLoss

/-- The kernel as printed runs and keeps its arguments: its generated frame. -/
theorem frame_k [Cert.Pre_finite_inputs.Facts] : Cert.frame_Kernel (hKernel := Cert.Kernel.Gen.facts) :=
  fun m ρ _ => Cert.Kernel.Gen.frame m ρ

/-- So does the idealized kernel. -/
theorem frame_ki [Cert.Pre_finite_inputs.Facts] : Cert.frame_KernelIdeal (hKernelIdeal := Cert.KernelIdeal.Gen.facts) :=
  fun m ρ _ => Cert.KernelIdeal.Gen.frame m ρ

/-- The reference runs and keeps its arguments: its run, the result dropped. -/
theorem frame_ri [Cert.Pre_finite_inputs.Facts] : Cert.frame_ReferenceIdeal (hReferenceIdeal := Cert.ReferenceIdeal.Gen.facts) :=
  fun m ρ _ => (θ_run Cert.ReferenceIdeal.defs _ _).mono (fun _ h c => (h c).2) (Cert.ReferenceIdeal.ValueP.run (F := Ideal) m ρ)

/-- Both idealized programs end with the loss of the argument arrays, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hG : ∀ (c : Dev Cert.KernelIdeal.nD) (b : Fin 512) (k : Fin 255),
      InRange ((m ((c.tc : Thread Cert.KernelIdeal.nD Cert.KernelIdeal.τ).loc Cert.KernelIdeal.main_arg1) : Cert.KernelIdeal.S512x256.Idx → BitVec 32) (ix2 b (dep k))) :=
    fun c b k => gold_heads_in_range (F := Ideal) _ _ _ _ (hpre c) b k
  have hN : ∀ (c : Dev Cert.KernelIdeal.nD) (n : Fin 4) (b : Fin 512) (k : Fin 255),
      InRange ((m ((c.tc : Thread Cert.KernelIdeal.nD Cert.KernelIdeal.τ).loc Cert.KernelIdeal.main_arg3) : Cert.KernelIdeal.S4x512x256.Idx → BitVec 32) (ix3 n b (dep k))) :=
    fun c n b k => neg_heads_in_range (F := Ideal) _ _ _ _ (hpre c) n b k
  refine ⟨_, kernel_run m ρ hG hN, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v28_eq, (hagree c).1, (hagree c).2.1, (hagree c).2.2.1, (hagree c).2.2.2]
  exact ref_loss _ _ _ _ (hG c) (hN c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
